-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S3x64 .f32) (main_arg7 : FVec F S3x64x64 .f32) (main_arg8 : FVec F S3x64 .f32) (main_arg9 : FVec F S64x32 .f32) (main_arg10 : FVec F S32 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S100000x32 .f32) (main_arg1 : IVec S2x1000000 32) (main_arg2 : IVec S100000 32) (main_arg3 : FVec F S32x64 .f32) (main_arg4 : FVec F S64 .f32) (main_arg5 : FVec F S3x64x64 .f32) (main_arg6 : FVec F S3x64 .f32) (main_arg7 : FVec F S3x64x64 .f32) (main_arg8 : FVec F S3x64 .f32) (main_arg9 : FVec F S64x32 .f32) (main_arg10 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_v13 main_v16
-- ==== Kernel.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S128x64 : Shape := ⟨2, ![128, 64]⟩
abbrev S100000x1 : Shape := ⟨2, ![100000, 1]⟩
abbrev S128x32 : Shape := ⟨2, ![128, 32]⟩
abbrev S1x32 : Shape := ⟨2, ![1, 32]⟩

abbrev nBuf : Space → Nat
  | .hbm => 97
  | .vmem => 36
  | .smem => 0
  | _ => 0

abbrev bufTy : (tb : Table) → Fin (tcTables nBuf tb) → BufTy
  | .hbm, ⟨0, _⟩ => ⟨S100000x32, .f32⟩
  | .hbm, ⟨1, _⟩ => ⟨S2x1000000, .i32⟩
  | .hbm, ⟨2, _⟩ => ⟨S100000, .i32⟩
  | .hbm, ⟨3, _⟩ => ⟨S32x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S64x32, .f32⟩
  | .hbm, ⟨10, _⟩ => ⟨S32, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S1x64, .f32⟩
  | .hbm, ⟨16, _⟩ => ⟨S100000x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S_, .f32⟩
  | .hbm, ⟨27, _⟩ => ⟨S100000x64, .f32⟩
  | .hbm, ⟨28, _⟩ => ⟨S1000000x1, .i32⟩
  | .hbm, ⟨29, _⟩ => ⟨S100000x64, .f32⟩
  | .hbm, ⟨30, _⟩ => ⟨S1x64x64, .f32⟩
  | .hbm, ⟨31, _⟩ => ⟨S64x64, .f32⟩
  | .hbm, ⟨32, _⟩ => ⟨S1x64, .f32⟩
  | .hbm, ⟨33, _⟩ => ⟨S64, .f32⟩
  | .hbm, ⟨34, _⟩ => ⟨S1x64x64, .f32⟩
  | .hbm, ⟨35, _⟩ => ⟨S64x64, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S1x64, .f32⟩
  | .hbm, ⟨40, _⟩ => ⟨S100000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S_, .f32⟩
  | .hbm, ⟨51, _⟩ => ⟨S100000x64, .f32⟩
  | .hbm, ⟨52, _⟩ => ⟨S1000000x1, .i32⟩
  | .hbm, ⟨53, _⟩ => ⟨S100000x64, .f32⟩
  | .hbm, ⟨54, _⟩ => ⟨S1x64x64, .f32⟩
  | .hbm, ⟨55, _⟩ => ⟨S64x64, .f32⟩
  | .hbm, ⟨56, _⟩ => ⟨S1x64, .f32⟩
  | .hbm, ⟨57, _⟩ => ⟨S64, .f32⟩
  | .hbm, ⟨58, _⟩ => ⟨S1x64x64, .f32⟩
  | .hbm, ⟨59, _⟩ => ⟨S64x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .f32⟩
  | .hbm, ⟨74, _⟩ => ⟨S_, .f32⟩
  | .hbm, ⟨75, _⟩ => ⟨S100000x64, .f32⟩
  | .hbm, ⟨76, _⟩ => ⟨S1000000x1, .i32⟩
  | .hbm, ⟨77, _⟩ => ⟨S100000x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64x64, .f32⟩
  | .hbm, ⟨83, _⟩ => ⟨S64x64, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S1x64, .f32⟩
  | .hbm, ⟨88, _⟩ => ⟨S100000x64, .f32⟩
  | .hbm, ⟨89, _⟩ => ⟨S_, .f32⟩
  | .hbm, ⟨90, _⟩ => ⟨S128x64, .f32⟩
  | .hbm, ⟨91, _⟩ => ⟨S100000x1, .i32⟩
  | .hbm, ⟨92, _⟩ => ⟨S128x64, .f32⟩
  | .hbm, ⟨93, _⟩ => ⟨S128x32, .f32⟩
  | .hbm, ⟨94, _⟩ => ⟨S1x32, .f32⟩
  | .hbm, ⟨95, _⟩ => ⟨S128x32, .f32⟩
  | .hbm, ⟨96, _⟩ => ⟨S128x32, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_4 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  dot_S5000x32_S32x64_S5000x64_1_0_0_1_n_n_wf : DotDims.WF S5000x32 S32x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S100000x64 : Shape := ⟨2, ![100000, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S128x64 : Shape := ⟨2, ![128, 64]⟩
abbrev S100000x1 : Shape := ⟨2, ![100000, 1]⟩
abbrev S128x32 : Shape := ⟨2, ![128, 32]⟩
abbrev S1x32 : Shape := ⟨2, ![1, 32]⟩

abbrev nBuf : Space → Nat
  | .hbm => 138
  | .vmem => 0
  | .smem => 0
  | _ => 0

abbrev hbmTy0_0 (i : Nat) : BufTy := match i % 128 with
  | 0 => ⟨S100000x32, .f32⟩
  | 1 => ⟨S2x1000000, .i32⟩
  | 2 => ⟨S100000, .i32⟩
  | 3 => ⟨S32x64, .f32⟩
  | 4 => ⟨S64, .f32⟩
  | 5 => ⟨S3x64x64, .f32⟩
  | 6 => ⟨S3x64, .f32⟩
  | 7 => ⟨S3x64x64, .f32⟩
  | 8 => ⟨S3x64, .f32⟩
  | 9 => ⟨S64x32, .f32⟩
  | 10 => ⟨S32, .f32⟩
  | 11 => ⟨S100000x64, .f32⟩
  | 12 => ⟨S1x64, .f32⟩
  | 13 => ⟨S100000x64, .f32⟩
  | 14 => ⟨S100000x64, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S100000x64, .f32⟩
  | 70 => ⟨S1x64x64, .f32⟩
  | 71 => ⟨S64x64, .f32⟩
  | 72 => ⟨S100000x64, .f32⟩
  | 73 => ⟨S1x64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S1x64x64, .f32⟩
  | 82 => ⟨S64x64, .f32⟩
  | 83 => ⟨S100000x64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S_, .f32⟩
  | 103 => ⟨S100000x64, .f32⟩
  | 104 => ⟨S1000000x1, .i32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S1x64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x32, .f32⟩

abbrev hbmTy0_1 (i : Nat) : BufTy := match i % 128 with
  | 0 => ⟨S100000x64, .f32⟩
  | 1 => ⟨S100000x64, .f32⟩
  | 2 => ⟨S_, .f32⟩
  | 3 => ⟨S128x64, .f32⟩
  | 4 => ⟨S100000x1, .i32⟩
  | 5 => ⟨S128x64, .f32⟩
  | 6 => ⟨S128x32, .f32⟩
  | 7 => ⟨S1x32, .f32⟩
  | 8 => ⟨S128x32, .f32⟩
  | 9 => ⟨S128x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_c_1 : Ref sig .tc := ⟨.hbm, 56, rfl⟩
abbrev main_v38 : Ref sig .tc := ⟨.hbm, 57, rfl⟩
abbrev main_v39 : Ref sig .tc := ⟨.hbm, 58, rfl⟩
abbrev main_c_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call2_cst : Ref sig .tc := ⟨.hbm, 78, rfl⟩
abbrev main_call2_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call3_cst : Ref sig .tc := ⟨.hbm, 89, rfl⟩
abbrev main_call3_v0 : Ref sig .tc := ⟨.hbm, 90, rfl⟩
abbrev main_v66 : Ref sig .tc := ⟨.hbm, 91, rfl⟩
abbrev main_v67 : Ref sig .tc := ⟨.hbm, 92, rfl⟩
abbrev main_c_4 : Ref sig .tc := ⟨.hbm, 93, rfl⟩
abbrev main_v68 : Ref sig .tc := ⟨.hbm, 94, rfl⟩
abbrev main_v69 : Ref sig .tc := ⟨.hbm, 95, rfl⟩
abbrev main_c_5 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_6 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call4_cst : Ref sig .tc := ⟨.hbm, 115, rfl⟩
abbrev main_call4_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call5_cst : Ref sig .tc := ⟨.hbm, 126, rfl⟩
abbrev main_call5_v0 : Ref sig .tc := ⟨.hbm, 127, rfl⟩
abbrev main_v96 : Ref sig .tc := ⟨.hbm, 128, rfl⟩
abbrev main_v97 : Ref sig .tc := ⟨.hbm, 129, rfl⟩
abbrev main_cst_7 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  dot_S100000x32_S32x64_S100000x64_1_0_0_1_n_n_wf : DotDims.WF S100000x32 S32x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.LibRowBlockDot.lean ====
/-
  A plain matrix product [a,k]·[k,p] → [a,p] read one ROW at a time, at the exact (extended-real) values.

  For dimension numbers that contract the left operand's axis 1 with the right operand's axis 0 and have no batch
  axis (`PlainDot`: the one contracted axis has extent k, and the operand indices at output index (r, c) and
  contraction position κ are (r, κ) and (κ, c)), the contraction's sum is the sum over κ : Fin k of
  L (r, κ) · R (κ, c) (`PlainDot.sum_eq`).  So an accumulating product into the zero splat, taken on a block of
  rows, and a host product taken on the whole array agree at corresponding rows as soon as the two left operands
  agree on that row and the two right operands on that column (`matmul_rowBlock`): row r of a product depends
  on row r of the left operand only.  A sum over κ is the same sum whatever its order or grouping, so nothing here
  asks the entries to be finite.
-/
import Idealize.ShloMosaic.Lib.ValueIdx
import Idealize.ShloMosaic.PureOps.Ideal.Laws

noncomputable section

open scoped BigOperators

namespace Cert.LibRowBlockDot

open Idealize.ShloMosaic Idealize.ShloMosaic.ValueIdx

/-- The dimension numbers of a plain product [a,k]·[k,p] → [a,p], as four axis readings: one contracted axis, of
    extent k; the left operand is read at (output row, contraction position), the right one at (contraction position,
    output column).  Each field is decided once on a program's literal record. -/
structure PlainDot {a k p : Nat} (d : DotDims ⟨2, ![a, k]⟩ ⟨2, ![k, p]⟩ ⟨2, ![a, p]⟩) : Prop where
  rank : d.contr.rank = 1
  size : ∀ h : 0 < d.contr.rank, d.contr.size ⟨0, h⟩ = k
  l0 : ∀ j q, (d.lhsIdx j q 0).val = (j 0).val
  l1 : ∀ j q (h : 0 < d.contr.rank), (d.lhsIdx j q 1).val = (q ⟨0, h⟩).val
  r0 : ∀ j q (h : 0 < d.contr.rank), (d.rhsIdx j q 0).val = (q ⟨0, h⟩).val
  r1 : ∀ j q, (d.rhsIdx j q 1).val = (j 1).val

/-- The contraction's sum at output index (r, c) is the sum over the k positions of L (r, κ) · R (κ, c). -/
theorem PlainDot.sum_eq {a k p : Nat} {d : DotDims ⟨2, ![a, k]⟩ ⟨2, ![k, p]⟩ ⟨2, ![a, p]⟩} (hd : PlainDot d)
    (L : (⟨2, ![a, k]⟩ : Shape).Idx → EReal) (R : (⟨2, ![k, p]⟩ : Shape).Idx → EReal) (r : Fin a) (c : Fin p) :
    ∑ q : d.contr.Idx, L (d.lhsIdx (ix2 r c) q) * R (d.rhsIdx (ix2 r c) q) = ∑ κ : Fin k, L (ix2 r κ) * R (ix2 κ c) := by
  have h0 : 0 < d.contr.rank := by rw [hd.rank]; exact Nat.one_pos
  rw [← Equiv.sum_comp (contrEquiv1 d k hd.rank (hd.size _)).symm]
  refine Finset.sum_congr rfl fun κ _ => ?_
  have hk := contrEquiv1_symm_val d k hd.rank (hd.size _) κ
  have el : d.lhsIdx (ix2 r c) ((contrEquiv1 d k hd.rank (hd.size _)).symm κ) = ix2 r κ := funext fun x => Fin.ext (by
    match x with
    | ⟨0, _⟩ => exact hd.l0 _ _
    | ⟨1, _⟩ => exact (hd.l1 _ _ h0).trans hk)
  have er : d.rhsIdx (ix2 r c) ((contrEquiv1 d k hd.rank (hd.size _)).symm κ) = ix2 κ c := funext fun x => Fin.ext (by
    match x with
    | ⟨0, _⟩ => exact (hd.r0 _ _ h0).trans hk
    | ⟨1, _⟩ => exact hd.r1 _ _)
  rw [el, er]

/-- Row r of a block's product into the zero splat is row r' of the whole array's host product, when the block's
    left operand on row r is the array's on row r' and the right operands agree on column c. -/
theorem matmul_rowBlock {a A k p : Nat} {φ₁ φ₁' φ₂ φ₂' : FTy}
    {dK : DotDims ⟨2, ![a, k]⟩ ⟨2, ![k, p]⟩ ⟨2, ![a, p]⟩} {dR : DotDims ⟨2, ![A, k]⟩ ⟨2, ![k, p]⟩ ⟨2, ![A, p]⟩}
    (hK : PlainDot dK) (hR : PlainDot dR) (precK precR : Option ContractPrecision) (sched : HostSchedule)
    (lK : FVec Ideal ⟨2, ![a, k]⟩ φ₁) (rK : FVec Ideal ⟨2, ![k, p]⟩ φ₂)
    (lR : FVec Ideal ⟨2, ![A, k]⟩ φ₁') (rR : FVec Ideal ⟨2, ![k, p]⟩ φ₂')
    (r : Fin a) (r' : Fin A) (c : Fin p)
    (hl : ∀ κ : Fin k, lK (ix2 r κ) = lR (ix2 r' κ)) (hr : ∀ κ : Fin k, rK (ix2 κ c) = rR (ix2 κ c)) :
    FloatOps.matmul dK precK lK rK (constant ⟨2, ![a, p]⟩ .f32 0x00000000#32) (ix2 r c)
      = FloatOps.dotGeneral dR precR sched lR rR (ix2 r' c) := by
  rw [Ideal.matmul_constant_zero_apply, Ideal.dotGeneral_apply, hK.sum_eq lK rK r c, hR.sum_eq lR rR r' c]
  exact Finset.sum_congr rfl fun κ _ => by rw [hl κ, hr κ]

/-- Two host products over the same arrays read the same: the schedule key and the precision are not in the sum. -/
theorem dotGeneral_congr {A k p : Nat} {φ₁ φ₂ : FTy}
    {d d' : DotDims ⟨2, ![A, k]⟩ ⟨2, ![k, p]⟩ ⟨2, ![A, p]⟩} (hd : PlainDot d) (hd' : PlainDot d')
    (prec prec' : Option ContractPrecision) (sched sched' : HostSchedule)
    (l : FVec Ideal ⟨2, ![A, k]⟩ φ₁) (r : FVec Ideal ⟨2, ![k, p]⟩ φ₂) :
    FloatOps.dotGeneral d prec sched l r = FloatOps.dotGeneral d' prec' sched' l r := by
  funext j
  obtain ⟨x, y, rfl⟩ : ∃ (x : Fin A) (y : Fin p), j = ix2 x y := ⟨j 0, j 1, eq_ix2 j⟩
  rw [Ideal.dotGeneral_apply, Ideal.dotGeneral_apply, hd.sum_eq l r x y, hd'.sum_eq l r x y]

end Cert.LibRowBlockDot

end
-- ==== Proof.Spec.lean ====
/-
  What the program computes, as whole-array functions, and the block form of each kernel body.

  The network: h₀ = x·W_in + b_in (rows of 32 features to rows of 64); three times
  h ↦ relu(relu((h + agg h)·W₁ + b₁)·W₂ + b₂) + h, where agg h adds, into row dst(e) of a zero array, row src(e) of h
  for every edge e (a gather of rows followed by a scatter-add); then the rows of h₃ are added per graph (a scatter-add
  by `batch` into 128 rows) and multiplied by W_fc, plus b_fc.

  The kernel computes the dense part of each step one block of 5000 rows at a time (`projB`, `layerB`: the bodies'
  payloads), the reference on the whole 100000-row array (`projK`, `layerK`).  Every operation of the dense part is
  either pointwise or a matrix product, whose row r depends on row r of its left operand only; so row r of the block
  computed from rows o … o+4999 of the inputs is row o + r of the whole-array result (`proj_rows`, `layer_rows`).
  A format change is the identity on exact values, and a sum is the same whatever its order, so no entry has to be finite.
-/
import proofs.«112093_j32332513804324_1_alg».proof.Proof.Gen.KernelIdeal.Skeleton
import proofs.«112093_j32332513804324_1_alg».proof.Proof.Gen.ReferenceIdeal
import proofs.«112093_j32332513804324_1_alg».proof.Proof.LibRowBlockDot
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx Cert.LibRowBlockDot

/-! ## The dimension records are plain products -/

section Records
open Cert.KernelIdeal Cert.KernelIdeal.Gen

theorem plain_blk32 : PlainDot Cert.KernelIdeal.dot_S5000x32_S32x64_S5000x64_1_0_0_1_n_n where
  rank := rfl
  size := fun _ => rfl
  l0 := fun j q => by
    unfold DotDims.lhsIdx
    rw [dif_neg (show ¬(0 : Fin Cert.KernelIdeal.S5000x32.rank) ∈ Cert.KernelIdeal.dot_S5000x32_S32x64_S5000x64_1_0_0_1_n_n.lhsBatch by decide),
      dif_pos (show (0 : Fin Cert.KernelIdeal.S5000x32.rank) ∈ Cert.KernelIdeal.dot_S5000x32_S32x64_S5000x64_1_0_0_1_n_n.lhsNonContracting by decide)]
    rfl
  l1 := fun j q _ => Cert.KernelIdeal.dot_S5000x32_S32x64_S5000x64_1_0_0_1_n_n.lhsIdx_val_of_single rfl j q
  r0 := fun j q _ => Cert.KernelIdeal.dot_S5000x32_S32x64_S5000x64_1_0_0_1_n_n.rhsIdx_val_of_single rfl j q
  r1 := fun j q => by
    unfold DotDims.rhsIdx
    rw [dif_neg (show ¬(1 : Fin Cert.KernelIdeal.S32x64.rank) ∈ Cert.KernelIdeal.dot_S5000x32_S32x64_S5000x64_1_0_0_1_n_n.rhsBatch by decide),
      dif_pos (show (1 : Fin Cert.KernelIdeal.S32x64.rank) ∈ Cert.KernelIdeal.dot_S5000x32_S32x64_S5000x64_1_0_0_1_n_n.rhsNonContracting by decide)]
    rfl

theorem plain_blk64 : PlainDot Cert.KernelIdeal.dot_S5000x64_S64x64_S5000x64_1_0_0_1_n_n where
  rank := rfl
  size := fun _ => rfl
  l0 := fun j q => by
    unfold DotDims.lhsIdx
    rw [dif_neg (show ¬(0 : Fin Cert.KernelIdeal.S5000x64.rank) ∈ Cert.KernelIdeal.dot_S5000x64_S64x64_S5000x64_1_0_0_1_n_n.lhsBatch by decide),
      dif_pos (show (0 : Fin Cert.KernelIdeal.S5000x64.rank) ∈ Cert.KernelIdeal.dot_S5000x64_S64x64_S5000x64_1_0_0_1_n_n.lhsNonContracting by decide)]
    rfl
  l1 := fun j q _ => Cert.KernelIdeal.dot_S5000x64_S64x64_S5000x64_1_0_0_1_n_n.lhsIdx_val_of_single rfl j q
  r0 := fun j q _ => Cert.KernelIdeal.dot_S5000x64_S64x64_S5000x64_1_0_0_1_n_n.rhsIdx_val_of_single rfl j q
  r1 := fun j q => by
    unfold DotDims.rhsIdx
    rw [dif_neg (show ¬(1 : Fin Cert.KernelIdeal.S64x64.rank) ∈ Cert.KernelIdeal.dot_S5000x64_S64x64_S5000x64_1_0_0_1_n_n.rhsBatch by decide),
      dif_pos (show (1 : Fin Cert.KernelIdeal.S64x64.rank) ∈ Cert.KernelIdeal.dot_S5000x64_S64x64_S5000x64_1_0_0_1_n_n.rhsNonContracting by decide)]
    rfl

end Records

section RecordsRef
open Cert.ReferenceIdeal Cert.ReferenceIdeal.Gen

theorem plain_arr32 : PlainDot Cert.ReferenceIdeal.dot_S100000x32_S32x64_S100000x64_1_0_0_1_n_n where
  rank := rfl
  size := fun _ => rfl
  l0 := fun j q => by
    unfold DotDims.lhsIdx
    rw [dif_neg (show ¬(0 : Fin Cert.ReferenceIdeal.S100000x32.rank) ∈ Cert.ReferenceIdeal.dot_S100000x32_S32x64_S100000x64_1_0_0_1_n_n.lhsBatch by decide),
      dif_pos (show (0 : Fin Cert.ReferenceIdeal.S100000x32.rank) ∈ Cert.ReferenceIdeal.dot_S100000x32_S32x64_S100000x64_1_0_0_1_n_n.lhsNonContracting by decide)]
    rfl
  l1 := fun j q _ => Cert.ReferenceIdeal.dot_S100000x32_S32x64_S100000x64_1_0_0_1_n_n.lhsIdx_val_of_single rfl j q
  r0 := fun j q _ => Cert.ReferenceIdeal.dot_S100000x32_S32x64_S100000x64_1_0_0_1_n_n.rhsIdx_val_of_single rfl j q
  r1 := fun j q => by
    unfold DotDims.rhsIdx
    rw [dif_neg (show ¬(1 : Fin Cert.ReferenceIdeal.S32x64.rank) ∈ Cert.ReferenceIdeal.dot_S100000x32_S32x64_S100000x64_1_0_0_1_n_n.rhsBatch by decide),
      dif_pos (show (1 : Fin Cert.ReferenceIdeal.S32x64.rank) ∈ Cert.ReferenceIdeal.dot_S100000x32_S32x64_S100000x64_1_0_0_1_n_n.rhsNonContracting by decide)]
    rfl

theorem plain_arr64 : PlainDot Cert.ReferenceIdeal.dot_S100000x64_S64x64_S100000x64_1_0_0_1_n_n where
  rank := rfl
  size := fun _ => rfl
  l0 := fun j q => by
    unfold DotDims.lhsIdx
    rw [dif_neg (show ¬(0 : Fin Cert.ReferenceIdeal.S100000x64.rank) ∈ Cert.ReferenceIdeal.dot_S100000x64_S64x64_S100000x64_1_0_0_1_n_n.lhsBatch by decide),
      dif_pos (show (0 : Fin Cert.ReferenceIdeal.S100000x64.rank) ∈ Cert.ReferenceIdeal.dot_S100000x64_S64x64_S100000x64_1_0_0_1_n_n.lhsNonContracting by decide)]
    rfl
  l1 := fun j q _ => Cert.ReferenceIdeal.dot_S100000x64_S64x64_S100000x64_1_0_0_1_n_n.lhsIdx_val_of_single rfl j q
  r0 := fun j q _ => Cert.ReferenceIdeal.dot_S100000x64_S64x64_S100000x64_1_0_0_1_n_n.rhsIdx_val_of_single rfl j q
  r1 := fun j q => by
    unfold DotDims.rhsIdx
    rw [dif_neg (show ¬(1 : Fin Cert.ReferenceIdeal.S64x64.rank) ∈ Cert.ReferenceIdeal.dot_S100000x64_S64x64_S100000x64_1_0_0_1_n_n.rhsBatch by decide),
      dif_pos (show (1 : Fin Cert.ReferenceIdeal.S64x64.rank) ∈ Cert.ReferenceIdeal.dot_S100000x64_S64x64_S100000x64_1_0_0_1_n_n.rhsNonContracting by decide)]
    rfl

end RecordsRef

/-! ## The whole-array functions (the reference's operations) -/

section Whole
open Cert.ReferenceIdeal Cert.ReferenceIdeal.Gen

variable {F : FTy → Type} [FloatOps F]

/-- The zero array a scatter-add accumulates into, and a relu compares with. -/
def zeros : FVec F S100000x64 .f32 := broadcastInDim S100000x64 ![] bcast_S_S100000x64 (constant S_ .f32 0x00000000#32)
/-- A [1,64] row repeated down the 100000 rows. -/
def rowBias (b : FVec F S1x64 .f32) : FVec F S100000x64 .f32 := broadcastInDim S100000x64 ![0, 1] bcast_S1x64_S100000x64_0_1 b
/-- A [64] vector as a [1,64] row. -/
def asRow (b : FVec F S64 .f32) : FVec F S1x64 .f32 := broadcastInDim S1x64 ![1] bcast_S64_S1x64_1 b
/-- x·W + b. -/
def projK (x : FVec F S100000x32 .f32) (w : FVec F S32x64 .f32) (b : FVec F S1x64 .f32) : FVec F S100000x64 .f32 :=
  addf (Host.dotGeneral dot_S100000x32_S32x64_S100000x64_1_0_0_1_n_n none x w) (rowBias b)
/-- max(·, 0), entry by entry. -/
def relu (x : FVec F S100000x64 .f32) : FVec F S100000x64 .f32 := maximumf x zeros
/-- x·W + b on 64 features. -/
def denseK (x : FVec F S100000x64 .f32) (w : FVec F S64x64 .f32) (b : FVec F S1x64 .f32) : FVec F S100000x64 .f32 :=
  addf (Host.dotGeneral dot_S100000x64_S64x64_S100000x64_1_0_0_1_n_n none x w) (rowBias b)
/-- One step's dense part, from h and the aggregated neighbours a: relu(relu((h + a)·W₁ + b₁)·W₂ + b₂) + h. -/
def layerK (h a : FVec F S100000x64 .f32) (w1 : FVec F S64x64 .f32) (b1 : FVec F S1x64 .f32) (w2 : FVec F S64x64 .f32)
    (b2 : FVec F S1x64 .f32) : FVec F S100000x64 .f32 :=
  addf (relu (denseK (relu (denseK (addf h a) w1 b1)) w2 b2)) h

/-- The edges' source nodes (row 0 of the edge list). -/
def srcOf (e : IVec S2x1000000 32) : IVec S1000000 32 :=
  shapeCast _ (extractStridedSlice S1x1000000 ![0, 0] e slices_S2x1000000_S1x1000000_0_0) shapeCasts_S1x1000000_S1000000
/-- The edges' destination nodes (row 1 of the edge list). -/
def dstOf (e : IVec S2x1000000 32) : IVec S1000000 32 :=
  shapeCast _ (extractStridedSlice S1x1000000 ![1, 0] e slices_S2x1000000_S1x1000000_1_0) shapeCasts_S1x1000000_S1000000
/-- The gather's start indices: a negative node number counts from the end (plus 100000), as a column. -/
def gatherIdx (s : IVec S1000000 32) : IVec S1000000x1 32 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)
/-- The scatter's indices, as a column. -/
def scatterIdx (d : IVec S1000000 32) : IVec S1000000x1 32 := broadcastInDim S1000000x1 ![0] bcast_S1000000_S1000000x1_0 d
/-- The neighbours' sum: row src(e) of h added into row dst(e) of a zero array, for every edge e. -/
def agg (s d : IVec S1000000 32) (h : FVec F S100000x64 .f32) : FVec F S100000x64 .f32 :=
  Host.scatterAdd scatter_S100000x64_S1000000x1_S1000000x64_1_0_0_1 zeros (scatterIdx d)
    (Host.gather gather_S100000x64_S1000000x1_S1000000x64_1_0_n_n_0_1_164 h (gatherIdx s))
/-- One whole step. -/
def step (s d : IVec S1000000 32) (h : FVec F S100000x64 .f32) (w1 : FVec F S64x64 .f32) (b1 : FVec F S1x64 .f32)
    (w2 : FVec F S64x64 .f32) (b2 : FVec F S1x64 .f32) : FVec F S100000x64 .f32 :=
  layerK h (agg s d h) w1 b1 w2 b2
/-- The rows of h added per graph, times W_fc, plus b_fc. -/
def readout (batch : IVec S100000 32) (h : FVec F S100000x64 .f32) (wfc : FVec F S64x32 .f32) (bfc : FVec F S32 .f32) :
    FVec F S128x32 .f32 :=
  addf (Host.dotGeneral dot_S128x64_S64x32_S128x32_1_0_0_1_n_n none
      (Host.scatterAdd scatter_S128x64_S100000x1_S100000x64_1_0_0_1
        (broadcastInDim S128x64 ![] bcast_S_S128x64 (constant S_ .f32 0x00000000#32))
        (broadcastInDim S100000x1 ![0] bcast_S100000_S100000x1_0 batch) h) wfc)
    (broadcastInDim S128x32 ![0, 1] bcast_S1x32_S128x32_0_1 (broadcastInDim S1x32 ![1] bcast_S32_S1x32_1 bfc))

end Whole

/-! ## The block form of the kernel bodies -/

section Block
open Cert.KernelIdeal Cert.KernelIdeal.Gen

variable {F : FTy → Type} [FloatOps F]

/-- A [1,64] row repeated down a block's 5000 rows. -/
def rowBiasB (b : FVec F S1x64 .f32) : FVec F S5000x64 .f32 :=
  broadcastTo S5000x64 (shapeCast S1x64 b shapeCasts_S1x64_S1x64) broadcasts_S1x64_S5000x64
/-- The projection on a block: the product into the zero splat, plus the bias row. -/
def projB (x : FVec F S5000x32 .f32) (w : FVec F S32x64 .f32) (b : FVec F S1x64 .f32) : FVec F S5000x64 .f32 :=
  addf (matmul dot_S5000x32_S32x64_S5000x64_1_0_0_1_n_n none (truncf .bf16 x bitsLt_bf16_f32) (truncf .bf16 w bitsLt_bf16_f32)
    (constant S5000x64 .f32 0x00000000#32)) (rowBiasB b)
def reluB (x : FVec F S5000x64 .f32) : FVec F S5000x64 .f32 := maximumf x (broadcast S5000x64 (Scalar.ofBits .f32 0x00000000#32))
def denseB (x : FVec F S5000x64 .f32) (w : FVec F S64x64 .f32) (b : FVec F S1x64 .f32) : FVec F S5000x64 .f32 :=
  addf (matmul dot_S5000x64_S64x64_S5000x64_1_0_0_1_n_n none (truncf .bf16 x bitsLt_bf16_f32) (truncf .bf16 w bitsLt_bf16_f32)
    (constant S5000x64 .f32 0x00000000#32)) (rowBiasB b)
def layerB (h a : FVec F S5000x64 .f32) (w1 : FVec F S64x64 .f32) (b1 : FVec F S1x64 .f32) (w2 : FVec F S64x64 .f32)
    (b2 : FVec F S1x64 .f32) : FVec F S5000x64 .f32 :=
  addf (reluB (denseB (reluB (denseB (addf h a) w1 b1)) w2 b2)) h

/-- The projection body's payload is `projB` of its loads. -/
theorem k0_pay1_eq (x : Vec F S5000x32 .f32) (w : Vec F S32x64 .f32) (b : Vec F S1x64 .f32) : k0_pay1 x w b = projB x w b := rfl

/-- A step body's payload is `layerB` of its loads (a cast of a vector to its own shape is the vector). -/
theorem k1_pay1_eq (h a : Vec F S5000x64 .f32) (w1 : Vec F S64x64 .f32) (b1 : Vec F S1x64 .f32) (w2 : Vec F S64x64 .f32)
    (b2 : Vec F S1x64 .f32) : k1_pay1 h a w1 b1 w2 b2 = layerB h a w1 b1 w2 b2 := by
  unfold k1_pay1 layerB denseB reluB rowBiasB
  simp only [shapeCast_self]
theorem k2_pay1_eq (h a : Vec F S5000x64 .f32) (w1 : Vec F S64x64 .f32) (b1 : Vec F S1x64 .f32) (w2 : Vec F S64x64 .f32)
    (b2 : Vec F S1x64 .f32) : k2_pay1 h a w1 b1 w2 b2 = layerB h a w1 b1 w2 b2 := by
  unfold k2_pay1 layerB denseB reluB rowBiasB
  simp only [shapeCast_self]
theorem k3_pay1_eq (h a : Vec F S5000x64 .f32) (w1 : Vec F S64x64 .f32) (b1 : Vec F S1x64 .f32) (w2 : Vec F S64x64 .f32)
    (b2 : Vec F S1x64 .f32) : k3_pay1 h a w1 b1 w2 b2 = layerB h a w1 b1 w2 b2 := by
  unfold k3_pay1 layerB denseB reluB rowBiasB
  simp only [shapeCast_self]

end Block

end Cert.Spec

end
-- ==== Proof.Net.lean ====
/-
  The whole network as one function of the eleven arguments, in the whole-array operations of the specification:
  the projection, three steps (step k with the k-th slices of the stacked weights and biases), the readout.
  A bias vector [64] enters the dense part as a [1,64] row; reshaping it to that row and broadcasting it into that row
  are the same array (`asRow_eq_shapeCast`).
-/
import proofs.«112093_j32332513804324_1_alg».proof.Proof.Spec

noncomputable section

namespace Cert.Spec

open Idealize.ShloMosaic Idealize.ShloMosaic.ValueIdx
open Cert.ReferenceIdeal Cert.ReferenceIdeal.Gen

variable {F : FTy → Type} [FloatOps F]

/-- Slice k of the stacked [3,64,64] weights, as a [64,64] matrix. -/
def wAt0 (w : FVec F S3x64x64 .f32) : FVec F S64x64 .f32 :=
  shapeCast _ (extractStridedSlice S1x64x64 ![0, 0, 0] w slices_S3x64x64_S1x64x64_0_0_0) shapeCasts_S1x64x64_S64x64
def wAt1 (w : FVec F S3x64x64 .f32) : FVec F S64x64 .f32 :=
  shapeCast _ (extractStridedSlice S1x64x64 ![1, 0, 0] w slices_S3x64x64_S1x64x64_1_0_0) shapeCasts_S1x64x64_S64x64
def wAt2 (w : FVec F S3x64x64 .f32) : FVec F S64x64 .f32 :=
  shapeCast _ (extractStridedSlice S1x64x64 ![2, 0, 0] w slices_S3x64x64_S1x64x64_2_0_0) shapeCasts_S1x64x64_S64x64
/-- Slice k of the stacked [3,64] biases, as a [64] vector. -/
def bAt0 (b : FVec F S3x64 .f32) : FVec F S64 .f32 :=
  shapeCast _ (extractStridedSlice S1x64 ![0, 0] b slices_S3x64_S1x64_0_0) shapeCasts_S1x64_S64
def bAt1 (b : FVec F S3x64 .f32) : FVec F S64 .f32 :=
  shapeCast _ (extractStridedSlice S1x64 ![1, 0] b slices_S3x64_S1x64_1_0) shapeCasts_S1x64_S64
def bAt2 (b : FVec F S3x64 .f32) : FVec F S64 .f32 :=
  shapeCast _ (extractStridedSlice S1x64 ![2, 0] b slices_S3x64_S1x64_2_0) shapeCasts_S1x64_S64

/-- The network. -/
def net (x : FVec F S100000x32 .f32) (e : IVec S2x1000000 32) (batch : IVec S100000 32) (win : FVec F S32x64 .f32)
    (bin : FVec F S64 .f32) (w1 : FVec F S3x64x64 .f32) (b1 : FVec F S3x64 .f32) (w2 : FVec F S3x64x64 .f32)
    (b2 : FVec F S3x64 .f32) (wfc : FVec F S64x32 .f32) (bfc : FVec F S32 .f32) : FVec F S128x32 .f32 :=
  readout batch
    (step (srcOf e) (dstOf e)
      (step (srcOf e) (dstOf e)
        (step (srcOf e) (dstOf e) (projK x win (asRow bin))
          (wAt0 w1) (asRow (bAt0 b1)) (wAt0 w2) (asRow (bAt0 b2)))
        (wAt1 w1) (asRow (bAt1 b1)) (wAt1 w2) (asRow (bAt1 b2)))
      (wAt2 w1) (asRow (bAt2 b1)) (wAt2 w2) (asRow (bAt2 b2)))
    wfc bfc

/-- A [64] vector reshaped to a [1,64] row is the vector broadcast into that row. -/
theorem asRow_eq_shapeCast (b : FVec F S64 .f32) (h : S64.ShapeCasts S1x64) : shapeCast S1x64 b h = asRow b := by
  funext i
  unfold asRow
  have hi0 : (i 0).val < 1 := (i 0).isLt
  rw [broadcastInDim_apply _ bcast_S64_S1x64_1 b i (fun a => match a with | ⟨0, _⟩ => ⟨(i 1).val, (i 1).isLt⟩) (fun a => match a with
    | ⟨0, _⟩ => by show (i 1).val = if (64 : Nat) = 1 then 0 else (i 1).val; rw [if_neg (by decide)])]
  exact shapeCast_apply b h i _ (by
    rewrite [Shape.rowMajor_val_two, Shape.rowMajor_val_one]
    show (i 1).val = (i 0).val * 64 + (i 1).val
    omega)

end Cert.Spec

end
-- ==== Proof.HostRead.lean ====
/-
  What the host operations between the regions leave in the buffers the regions read.

  The program's buffer contents are a fold through @main: a stretch of host operations rewrites the buffers it writes,
  a region its output array.  Read at the buffers that matter: the first stretch splits the edge list into source and
  destination nodes and reshapes the input bias to a row; the stretch before step k gathers the source rows of the previous
  region's output and scatter-adds them by destination (the neighbours' sum), and slices the k-th weights and biases; the
  last stretch is the readout.  The edge nodes, the stacked weights and the readout's operands are written by no region
  and by no later stretch, so they are read back to the launch contents.
-/
import proofs.«112093_j32332513804324_1_alg».proof.Proof.Gen.KernelIdeal.Frame
import proofs.«112093_j32332513804324_1_alg».proof.Proof.Net

set_option maxRecDepth 16384

noncomputable section

namespace Cert.KernelIdeal.HostRead

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The output arrays of the four regions, each from the contents its region was entered with. -/
abbrev K0 (c : Dev nD) := (dat0 (V1 m ρ) c).arrAt 3 cfg0.N
abbrev K1 (c : Dev nD) := (dat1 (V3 m ρ) c).arrAt 6 cfg1.N
abbrev K2 (c : Dev nD) := (dat2 (V5 m ρ) c).arrAt 6 cfg2.N
abbrev K3 (c : Dev nD) := (dat3 (V7 m ρ) c).arrAt 6 cfg3.N

/-- The buffers later stretches read that no region touches: the edges' nodes, the stacked weights and biases, the
    readout's operands. -/
abbrev P : List (Ref sig .tc) :=
  [main_v1, main_v3, main_arg5, main_arg6, main_arg7, main_arg8, main_arg2, main_arg9, main_arg10]

theorem mem_P {b : Ref sig .tc} (hb : b ∈ P) : b = main_v1 ∨ b = main_v3 ∨ b = main_arg5 ∨ b = main_arg6 ∨ b = main_arg7
    ∨ b = main_arg8 ∨ b = main_arg2 ∨ b = main_arg9 ∨ b = main_arg10 := by
  simpa [P] using hb

/-! ## After the first stretch -/

theorem w1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem w1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem w1_v4 (c : Dev nD) : W1 m ρ c (Proc.devRef .tc main_v4) = shapeCast S1x64 (m ((c : Thread nD τ).loc main_arg4)) shapeCasts_S64_S1x64 := by
  show StableHlo.after hostOps0 (W0 m ρ c) (Proc.devRef .tc main_v4) = _
  after_results <;> rfl
theorem w1_v1 (c : Dev nD) : W1 m ρ c (Proc.devRef .tc main_v1) = Cert.Spec.srcOf (m ((c : Thread nD τ).loc main_arg1)) := by
  show StableHlo.after hostOps0 (W0 m ρ c) (Proc.devRef .tc main_v1) = _
  after_results <;> rfl
theorem w1_v3 (c : Dev nD) : W1 m ρ c (Proc.devRef .tc main_v3) = Cert.Spec.dstOf (m ((c : Thread nD τ).loc main_arg1)) := by
  show StableHlo.after hostOps0 (W0 m ρ c) (Proc.devRef .tc main_v3) = _
  after_results <;> rfl
/-- The launch contents no first-stretch operation writes, among those read later: the stacked weights and biases and the
    readout's operands. -/
abbrev Q : List (Ref sig .tc) := [main_arg5, main_arg6, main_arg7, main_arg8, main_arg2, main_arg9, main_arg10]

theorem w1_launch (c : Dev nD) : ∀ b ∈ Q, W1 m ρ c (Proc.devRef .tc b) = m ((c : Thread nD τ).loc b) := by
  intro b hb
  have hb' : b = main_arg5 ∨ b = main_arg6 ∨ b = main_arg7 ∨ b = main_arg8 ∨ b = main_arg2 ∨ b = main_arg9 ∨ b = main_arg10 := by
    simpa [Q] using hb
  rcases hb' with rfl | rfl | rfl | rfl | rfl | rfl | rfl <;>
    (show StableHlo.after hostOps0 (W0 m ρ c) _ = _; after_results <;> rfl)

/-! ## The untouched buffers, read back to the first boundary -/

set_option maxHeartbeats 2000000 in
theorem keep1 (c : Dev nD) : ∀ b ∈ P, W3 m ρ c (Proc.devRef .tc b) = W2 m ρ c (Proc.devRef .tc b) := by
  intro b hb
  rcases mem_P hb with rfl | rfl | rfl | rfl | rfl | rfl | rfl | rfl | rfl <;>
    (show StableHlo.after hostOps1 (W2 m ρ c) _ = _; after_results)
set_option maxHeartbeats 2000000 in
theorem keep2 (c : Dev nD) : ∀ b ∈ P, W5 m ρ c (Proc.devRef .tc b) = W4 m ρ c (Proc.devRef .tc b) := by
  intro b hb
  rcases mem_P hb with rfl | rfl | rfl | rfl | rfl | rfl | rfl | rfl | rfl <;>
    (show StableHlo.after hostOps2 (W4 m ρ c) _ = _; after_results)
set_option maxHeartbeats 2000000 in
theorem keep3 (c : Dev nD) : ∀ b ∈ P, W7 m ρ c (Proc.devRef .tc b) = W6 m ρ c (Proc.devRef .tc b) := by
  intro b hb
  rcases mem_P hb with rfl | rfl | rfl | rfl | rfl | rfl | rfl | rfl | rfl <;>
    (show StableHlo.after hostOps3 (W6 m ρ c) _ = _; after_results)

theorem back2 (c : Dev nD) : ∀ b ∈ P, W2 m ρ c (Proc.devRef .tc b) = W1 m ρ c (Proc.devRef .tc b) :=
  fun b hb => W2_of_ne m ρ c b ((by decide : ∀ b ∈ P, ∀ w, Pipeline.arrRef spec0 w ≠ b) b hb)
theorem back4 (c : Dev nD) : ∀ b ∈ P, W4 m ρ c (Proc.devRef .tc b) = W1 m ρ c (Proc.devRef .tc b) :=
  fun b hb => (W4_of_ne m ρ c b ((by decide : ∀ b ∈ P, ∀ w, Pipeline.arrRef spec1 w ≠ b) b hb)).trans
    ((keep1 m ρ c b hb).trans (back2 m ρ c b hb))
theorem back6 (c : Dev nD) : ∀ b ∈ P, W6 m ρ c (Proc.devRef .tc b) = W1 m ρ c (Proc.devRef .tc b) :=
  fun b hb => (W6_of_ne m ρ c b ((by decide : ∀ b ∈ P, ∀ w, Pipeline.arrRef spec2 w ≠ b) b hb)).trans
    ((keep2 m ρ c b hb).trans (back4 m ρ c b hb))
theorem back8 (c : Dev nD) : ∀ b ∈ P, W8 m ρ c (Proc.devRef .tc b) = W1 m ρ c (Proc.devRef .tc b) :=
  fun b hb => (W8_of_ne m ρ c b ((by decide : ∀ b ∈ P, ∀ w, Pipeline.arrRef spec3 w ≠ b) b hb)).trans
    ((keep3 m ρ c b hb).trans (back6 m ρ c b hb))

/-! ## Before step 1 -/

theorem w3_v5 (c : Dev nD) : W3 m ρ c (Proc.devRef .tc main_v5) = K0 m ρ c := by
  show StableHlo.after hostOps1 (W2 m ρ c) (Proc.devRef .tc main_v5) = _
  after_results
  exact W2_arr m ρ c 3
set_option maxHeartbeats 4000000 in
theorem w3_v15 (c : Dev nD) : W3 m ρ c (Proc.devRef .tc main_v15)
    = Cert.Spec.agg (Cert.Spec.srcOf (m ((c : Thread nD τ).loc main_arg1))) (Cert.Spec.dstOf (m ((c : Thread nD τ).loc main_arg1))) (K0 m ρ c) := by
  show StableHlo.after hostOps1 (W2 m ρ c) (Proc.devRef .tc main_v15) = _
  after_results_simp
  rw [back2 m ρ c main_v1 (by decide), back2 m ρ c main_v3 (by decide), w1_v1, w1_v3, show W2 m ρ c (Proc.devRef .tc main_v5) = K0 m ρ c from W2_arr m ρ c 3]
  rfl
theorem w3_v17 (c : Dev nD) : W3 m ρ c (Proc.devRef .tc main_v17) = Cert.Spec.wAt0 (m ((c : Thread nD τ).loc main_arg5)) := by
  show StableHlo.after hostOps1 (W2 m ρ c) (Proc.devRef .tc main_v17) = _
  after_results
  rw [back2 m ρ c main_arg5 (by decide), w1_launch m ρ c main_arg5 (by decide)]
  rfl
theorem w3_v24 (c : Dev nD) : W3 m ρ c (Proc.devRef .tc main_v24) = shapeCast S1x64 (Cert.Spec.bAt0 (m ((c : Thread nD τ).loc main_arg6))) shapeCasts_S64_S1x64 := by
  show StableHlo.after hostOps1 (W2 m ρ c) (Proc.devRef .tc main_v24) = _
  after_results
  rw [back2 m ρ c main_arg6 (by decide), w1_launch m ρ c main_arg6 (by decide)]
  rfl
theorem w3_v21 (c : Dev nD) : W3 m ρ c (Proc.devRef .tc main_v21) = Cert.Spec.wAt0 (m ((c : Thread nD τ).loc main_arg7)) := by
  show StableHlo.after hostOps1 (W2 m ρ c) (Proc.devRef .tc main_v21) = _
  after_results
  rw [back2 m ρ c main_arg7 (by decide), w1_launch m ρ c main_arg7 (by decide)]
  rfl
theorem w3_v25 (c : Dev nD) : W3 m ρ c (Proc.devRef .tc main_v25) = shapeCast S1x64 (Cert.Spec.bAt0 (m ((c : Thread nD τ).loc main_arg8))) shapeCasts_S64_S1x64 := by
  show StableHlo.after hostOps1 (W2 m ρ c) (Proc.devRef .tc main_v25) = _
  after_results
  rw [back2 m ρ c main_arg8 (by decide), w1_launch m ρ c main_arg8 (by decide)]
  rfl

/-! ## Before step 2 -/

theorem w5_v26 (c : Dev nD) : W5 m ρ c (Proc.devRef .tc main_v26) = K1 m ρ c := by
  show StableHlo.after hostOps2 (W4 m ρ c) (Proc.devRef .tc main_v26) = _
  after_results
  exact W4_arr m ρ c 6
set_option maxHeartbeats 4000000 in
theorem w5_v36 (c : Dev nD) : W5 m ρ c (Proc.devRef .tc main_v36)
    = Cert.Spec.agg (Cert.Spec.srcOf (m ((c : Thread nD τ).loc main_arg1))) (Cert.Spec.dstOf (m ((c : Thread nD τ).loc main_arg1))) (K1 m ρ c) := by
  show StableHlo.after hostOps2 (W4 m ρ c) (Proc.devRef .tc main_v36) = _
  after_results_simp
  rw [back4 m ρ c main_v1 (by decide), back4 m ρ c main_v3 (by decide), w1_v1, w1_v3, show W4 m ρ c (Proc.devRef .tc main_v26) = K1 m ρ c from W4_arr m ρ c 6]
  rfl
theorem w5_v38 (c : Dev nD) : W5 m ρ c (Proc.devRef .tc main_v38) = Cert.Spec.wAt1 (m ((c : Thread nD τ).loc main_arg5)) := by
  show StableHlo.after hostOps2 (W4 m ρ c) (Proc.devRef .tc main_v38) = _
  after_results
  rw [back4 m ρ c main_arg5 (by decide), w1_launch m ρ c main_arg5 (by decide)]
  rfl
theorem w5_v45 (c : Dev nD) : W5 m ρ c (Proc.devRef .tc main_v45) = shapeCast S1x64 (Cert.Spec.bAt1 (m ((c : Thread nD τ).loc main_arg6))) shapeCasts_S64_S1x64 := by
  show StableHlo.after hostOps2 (W4 m ρ c) (Proc.devRef .tc main_v45) = _
  after_results
  rw [back4 m ρ c main_arg6 (by decide), w1_launch m ρ c main_arg6 (by decide)]
  rfl
theorem w5_v42 (c : Dev nD) : W5 m ρ c (Proc.devRef .tc main_v42) = Cert.Spec.wAt1 (m ((c : Thread nD τ).loc main_arg7)) := by
  show StableHlo.after hostOps2 (W4 m ρ c) (Proc.devRef .tc main_v42) = _
  after_results
  rw [back4 m ρ c main_arg7 (by decide), w1_launch m ρ c main_arg7 (by decide)]
  rfl
theorem w5_v46 (c : Dev nD) : W5 m ρ c (Proc.devRef .tc main_v46) = shapeCast S1x64 (Cert.Spec.bAt1 (m ((c : Thread nD τ).loc main_arg8))) shapeCasts_S64_S1x64 := by
  show StableHlo.after hostOps2 (W4 m ρ c) (Proc.devRef .tc main_v46) = _
  after_results
  rw [back4 m ρ c main_arg8 (by decide), w1_launch m ρ c main_arg8 (by decide)]
  rfl

/-! ## Before step 3 -/

theorem w7_v47 (c : Dev nD) : W7 m ρ c (Proc.devRef .tc main_v47) = K2 m ρ c := by
  show StableHlo.after hostOps3 (W6 m ρ c) (Proc.devRef .tc main_v47) = _
  after_results
  exact W6_arr m ρ c 6
set_option maxHeartbeats 4000000 in
theorem w7_v57 (c : Dev nD) : W7 m ρ c (Proc.devRef .tc main_v57)
    = Cert.Spec.agg (Cert.Spec.srcOf (m ((c : Thread nD τ).loc main_arg1))) (Cert.Spec.dstOf (m ((c : Thread nD τ).loc main_arg1))) (K2 m ρ c) := by
  show StableHlo.after hostOps3 (W6 m ρ c) (Proc.devRef .tc main_v57) = _
  after_results_simp
  rw [back6 m ρ c main_v1 (by decide), back6 m ρ c main_v3 (by decide), w1_v1, w1_v3, show W6 m ρ c (Proc.devRef .tc main_v47) = K2 m ρ c from W6_arr m ρ c 6]
  rfl
theorem w7_v59 (c : Dev nD) : W7 m ρ c (Proc.devRef .tc main_v59) = Cert.Spec.wAt2 (m ((c : Thread nD τ).loc main_arg5)) := by
  show StableHlo.after hostOps3 (W6 m ρ c) (Proc.devRef .tc main_v59) = _
  after_results
  rw [back6 m ρ c main_arg5 (by decide), w1_launch m ρ c main_arg5 (by decide)]
  rfl
theorem w7_v66 (c : Dev nD) : W7 m ρ c (Proc.devRef .tc main_v66) = shapeCast S1x64 (Cert.Spec.bAt2 (m ((c : Thread nD τ).loc main_arg6))) shapeCasts_S64_S1x64 := by
  show StableHlo.after hostOps3 (W6 m ρ c) (Proc.devRef .tc main_v66) = _
  after_results
  rw [back6 m ρ c main_arg6 (by decide), w1_launch m ρ c main_arg6 (by decide)]
  rfl
theorem w7_v63 (c : Dev nD) : W7 m ρ c (Proc.devRef .tc main_v63) = Cert.Spec.wAt2 (m ((c : Thread nD τ).loc main_arg7)) := by
  show StableHlo.after hostOps3 (W6 m ρ c) (Proc.devRef .tc main_v63) = _
  after_results
  rw [back6 m ρ c main_arg7 (by decide), w1_launch m ρ c main_arg7 (by decide)]
  rfl
theorem w7_v67 (c : Dev nD) : W7 m ρ c (Proc.devRef .tc main_v67) = shapeCast S1x64 (Cert.Spec.bAt2 (m ((c : Thread nD τ).loc main_arg8))) shapeCasts_S64_S1x64 := by
  show StableHlo.after hostOps3 (W6 m ρ c) (Proc.devRef .tc main_v67) = _
  after_results
  rw [back6 m ρ c main_arg8 (by decide), w1_launch m ρ c main_arg8 (by decide)]
  rfl

/-! ## The readout -/

theorem w9_v75 (c : Dev nD) : W9 m ρ c (Proc.devRef .tc main_v75)
    = Cert.Spec.readout (m ((c : Thread nD τ).loc main_arg2)) (K3 m ρ c) (m ((c : Thread nD τ).loc main_arg9)) (m ((c : Thread nD τ).loc main_arg10)) := by
  show StableHlo.after hostOps4 (W8 m ρ c) (Proc.devRef .tc main_v75) = _
  after_results
  rw [back8 m ρ c main_arg2 (by decide), back8 m ρ c main_arg9 (by decide), back8 m ρ c main_arg10 (by decide), w1_launch m ρ c main_arg2 (by decide), w1_launch m ρ c main_arg9 (by decide), w1_launch m ρ c main_arg10 (by decide),
    show W8 m ρ c (Proc.devRef .tc main_v68) = K3 m ρ c from W8_arr m ρ c 6]
  rfl

end Cert.KernelIdeal.HostRead

end
-- ==== Proof.Rows.lean ====
/-
  Row r of a block's result is row o + r of the whole array's, at the exact values.

  Each piece of the dense part, read at entry (r, c) of a block and at entry (r', c) of the whole array, with the
  block's inputs being rows r ↦ r' of the array's: a bias row reads its entry c on both sides; a relu is a maximum
  with 0 on both sides; a product's row depends on the left operand's row alone (the row-block lemma).  Chained,
  these give the projection and the whole step.
-/
import proofs.«112093_j32332513804324_1_alg».proof.Proof.Spec

noncomputable section

open scoped BigOperators

namespace Cert.Rows

open Idealize.ShloMosaic Idealize.ShloMosaic.ValueIdx Cert.LibRowBlockDot Cert.Spec

/-- The zero array reads 0's word everywhere. -/
theorem zeros_apply (i : Cert.ReferenceIdeal.S100000x64.Idx) :
    zeros (F := Ideal) i = Ideal.ofBits .f32 0x00000000#32 := by
  unfold zeros
  exact broadcastInDim_apply _ _ _ i ix0 (fun a => a.elim0)

/-- A bias row repeated down a block reads the row's entry c. -/
theorem rowBiasB_apply (b : FVec Ideal Cert.KernelIdeal.S1x64 .f32) (r : Fin 5000) (c : Fin 64) :
    rowBiasB b (ix2 r c) = b (ix2 (0 : Fin 1) c) := by
  unfold rowBiasB
  rw [shapeCast_self]
  exact broadcastTo_apply b _ (ix2 r c) (ix2 (0 : Fin 1) c) (fun a => match a with
    | ⟨0, _⟩ => by show 0 = if (1 : Nat) = 1 then 0 else _; rw [if_pos rfl]
    | ⟨1, _⟩ => by show c.val = if (64 : Nat) = 1 then 0 else _; rw [if_neg (by decide)]; rfl)

/-- A bias row repeated down the array reads the row's entry c. -/
theorem rowBias_apply (b : FVec Ideal Cert.ReferenceIdeal.S1x64 .f32) (r : Fin 100000) (c : Fin 64) :
    rowBias b (ix2 r c) = b (ix2 (0 : Fin 1) c) := by
  unfold rowBias
  exact broadcastInDim_apply _ _ b (ix2 r c) (ix2 (0 : Fin 1) c) (fun a => match a with
    | ⟨0, _⟩ => by show 0 = if (1 : Nat) = 1 then 0 else _; rw [if_pos rfl]
    | ⟨1, _⟩ => by show c.val = if (64 : Nat) = 1 then 0 else _; rw [if_neg (by decide)]; rfl)

/-- Relu, entry by entry, on both sides. -/
theorem relu_rows (xB : FVec Ideal Cert.KernelIdeal.S5000x64 .f32) (xR : FVec Ideal Cert.ReferenceIdeal.S100000x64 .f32)
    (i : Cert.KernelIdeal.S5000x64.Idx) (i' : Cert.ReferenceIdeal.S100000x64.Idx) (h : xB i = xR i') :
    reluB xB i = relu xR i' := by
  show max (xB i) (Ideal.ofBits .f32 0x00000000#32) = max (xR i') (zeros (F := Ideal) i')
  rw [zeros_apply, h]

/-- The projection: row r of the block's product plus bias is row r' of the array's. -/
theorem proj_rows (xB : FVec Ideal Cert.KernelIdeal.S5000x32 .f32) (xR : FVec Ideal Cert.ReferenceIdeal.S100000x32 .f32)
    (w : FVec Ideal Cert.KernelIdeal.S32x64 .f32) (b : FVec Ideal Cert.KernelIdeal.S1x64 .f32)
    (r : Fin 5000) (r' : Fin 100000) (c : Fin 64) (hx : ∀ κ : Fin 32, xB (ix2 r κ) = xR (ix2 r' κ)) :
    projB xB w b (ix2 r c) = projK xR w b (ix2 r' c) := by
  show _ + rowBiasB b (ix2 r c) = _ + rowBias b (ix2 r' c)
  rw [rowBiasB_apply, rowBias_apply]
  congr 1
  exact matmul_rowBlock plain_blk32 plain_arr32 none none _ _ _ _ _ r r' c (fun κ => hx κ) (fun κ => rfl)

/-- One dense layer: row r of the block's is row r' of the array's. -/
theorem dense_rows (xB : FVec Ideal Cert.KernelIdeal.S5000x64 .f32) (xR : FVec Ideal Cert.ReferenceIdeal.S100000x64 .f32)
    (w : FVec Ideal Cert.KernelIdeal.S64x64 .f32) (b : FVec Ideal Cert.KernelIdeal.S1x64 .f32)
    (r : Fin 5000) (r' : Fin 100000) (c : Fin 64) (hx : ∀ κ : Fin 64, xB (ix2 r κ) = xR (ix2 r' κ)) :
    denseB xB w b (ix2 r c) = denseK xR w b (ix2 r' c) := by
  show _ + rowBiasB b (ix2 r c) = _ + rowBias b (ix2 r' c)
  rw [rowBiasB_apply, rowBias_apply]
  congr 1
  exact matmul_rowBlock plain_blk64 plain_arr64 none none _ _ _ _ _ r r' c (fun κ => hx κ) (fun κ => rfl)

/-- The whole step: with the block's h and a being rows r ↦ r' of the array's, so is the result. -/
theorem layer_rows (hB aB : FVec Ideal Cert.KernelIdeal.S5000x64 .f32) (hR aR : FVec Ideal Cert.ReferenceIdeal.S100000x64 .f32)
    (w1 : FVec Ideal Cert.KernelIdeal.S64x64 .f32) (b1 : FVec Ideal Cert.KernelIdeal.S1x64 .f32)
    (w2 : FVec Ideal Cert.KernelIdeal.S64x64 .f32) (b2 : FVec Ideal Cert.KernelIdeal.S1x64 .f32)
    (r : Fin 5000) (r' : Fin 100000) (c : Fin 64)
    (hh : ∀ κ : Fin 64, hB (ix2 r κ) = hR (ix2 r' κ)) (ha : ∀ κ : Fin 64, aB (ix2 r κ) = aR (ix2 r' κ)) :
    layerB hB aB w1 b1 w2 b2 (ix2 r c) = layerK hR aR w1 b1 w2 b2 (ix2 r' c) := by
  have e1 : ∀ κ : Fin 64, reluB (denseB (addf hB aB) w1 b1) (ix2 r κ) = relu (denseK (addf hR aR) w1 b1) (ix2 r' κ) := fun κ =>
    relu_rows _ _ _ _ (dense_rows _ _ w1 b1 r r' κ fun j => by
      show hB (ix2 r j) + aB (ix2 r j) = hR (ix2 r' j) + aR (ix2 r' j)
      rw [hh j, ha j])
  show reluB (denseB (reluB (denseB (addf hB aB) w1 b1)) w2 b2) (ix2 r c) + hB (ix2 r c)
    = relu (denseK (relu (denseK (addf hR aR) w1 b1)) w2 b2) (ix2 r' c) + hR (ix2 r' c)
  rw [hh c, relu_rows _ _ _ _ (dense_rows _ _ w2 b2 r r' c e1)]

/-- The projection at any block entry y and array entry i of one column, the block's rows being the array's
    (`hx`: entries of the two left operands on rows y 0 and i 0, same column, agree). -/
theorem proj_at (xB : FVec Ideal Cert.KernelIdeal.S5000x32 .f32) (xR : FVec Ideal Cert.ReferenceIdeal.S100000x32 .f32)
    (wB wR : FVec Ideal Cert.KernelIdeal.S32x64 .f32) (bB bR : FVec Ideal Cert.KernelIdeal.S1x64 .f32)
    (y : Cert.KernelIdeal.S5000x64.Idx) (i : Cert.ReferenceIdeal.S100000x64.Idx) (hc : (i 1).val = (y 1).val)
    (hx : ∀ (y' : Cert.KernelIdeal.S5000x32.Idx) (i' : Cert.ReferenceIdeal.S100000x32.Idx),
      (y' 0).val = (y 0).val → (i' 0).val = (i 0).val → (i' 1).val = (y' 1).val → xB y' = xR i')
    (hw : wB = wR) (hb : bB = bR) : projB xB wB bB y = projK xR wR bR i := by
  subst hw hb
  obtain ⟨p, q, rfl⟩ : ∃ (p : Fin 5000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  obtain rfl : q = q' := Fin.ext hc.symm
  exact proj_rows xB xR wB bB p p' q (fun κ => hx (ix2 p κ) (ix2 p' κ) rfl rfl rfl)

/-- The step at any block entry y and array entry i of one column, the block's rows of h and a being the array's. -/
theorem layer_at (hB aB : FVec Ideal Cert.KernelIdeal.S5000x64 .f32) (hR aR : FVec Ideal Cert.ReferenceIdeal.S100000x64 .f32)
    (w1B w1R : FVec Ideal Cert.KernelIdeal.S64x64 .f32) (b1B b1R : FVec Ideal Cert.KernelIdeal.S1x64 .f32)
    (w2B w2R : FVec Ideal Cert.KernelIdeal.S64x64 .f32) (b2B b2R : FVec Ideal Cert.KernelIdeal.S1x64 .f32)
    (y : Cert.KernelIdeal.S5000x64.Idx) (i : Cert.ReferenceIdeal.S100000x64.Idx) (hc : (i 1).val = (y 1).val)
    (hh : ∀ (y' : Cert.KernelIdeal.S5000x64.Idx) (i' : Cert.ReferenceIdeal.S100000x64.Idx),
      (y' 0).val = (y 0).val → (i' 0).val = (i 0).val → (i' 1).val = (y' 1).val → hB y' = hR i')
    (ha : ∀ (y' : Cert.KernelIdeal.S5000x64.Idx) (i' : Cert.ReferenceIdeal.S100000x64.Idx),
      (y' 0).val = (y 0).val → (i' 0).val = (i 0).val → (i' 1).val = (y' 1).val → aB y' = aR i')
    (hw1 : w1B = w1R) (hb1 : b1B = b1R) (hw2 : w2B = w2R) (hb2 : b2B = b2R) :
    layerB hB aB w1B b1B w2B b2B y = layerK hR aR w1R b1R w2R b2R i := by
  subst hw1 hb1 hw2 hb2
  obtain ⟨p, q, rfl⟩ : ∃ (p : Fin 5000) (q : Fin 64), y = ix2 p q := ⟨y 0, y 1, eq_ix2 y⟩
  obtain ⟨p', q', rfl⟩ : ∃ (p' : Fin 100000) (q' : Fin 64), i = ix2 p' q' := ⟨i 0, i 1, eq_ix2 i⟩
  obtain rfl : q = q' := Fin.ext hc.symm
  exact layer_rows hB aB hR aR w1B b1B w2B b2B p p' q (fun κ => hh (ix2 p κ) (ix2 p' κ) rfl rfl rfl)
    (fun κ => ha (ix2 p κ) (ix2 p' κ) rfl rfl rfl)

end Cert.Rows

end
-- ==== Proof.Region0.lean ====
/-
  What the projection's region leaves in its output array: x·W_in + b_in of the arrays it was entered with.

  Point t of the 20-point grid stages rows 5000t … 5000t + 4999 of x (window 0), all of W_in and of the bias row
  (windows 1 and 2, at block (0, 0)), and writes back rows 5000t … 5000t + 4999 of the output (window 3).  What it writes
  is the block form of the projection on the staged rows, which is those rows of the whole-array projection; the 20 blocks
  cover the 100000 rows, so the array ends as the whole-array projection.
-/
import proofs.«112093_j32332513804324_1_alg».proof.Proof.Gen.KernelIdeal.Frame
import proofs.«112093_j32332513804324_1_alg».proof.Proof.Rows
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weights and the bias row at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The whole-array projection of the arrays the region finds. -/
abbrev G (c : Dev nD) : FVec Ideal S100000x64 .f32 :=
  Cert.Spec.projK (V c main_arg0) (V c main_arg3) (V c main_v4)

set_option maxHeartbeats 1000000 in
/-- What point t writes back is block t of the whole-array projection. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz, View.ld_unit_zero (S := S1x64) hz]
  rw [Cert.Spec.k0_pay1_eq]
  obtain ⟨e00, e01, e10, e11, e20, e21, e30, e31⟩ := idx_facts t
  funext j
  have hj0 : (j 0).val < 5000 := (j 0).isLt
  have hj1 : (j 1).val < 64 := (j 1).isLt
  have hi0 : ((((cfg0.win 3).blk t).view.emb j) 0).val = win0_3.index t (0 : Fin 2) * 5000 + 1 * (j 0).val := rfl
  have hi1 : ((((cfg0.win 3).blk t).view.emb j) 1).val = win0_3.index t (1 : Fin 2) * 64 + 1 * (j 1).val := rfl
  refine Cert.Rows.proj_at _ _ _ _ _ _ j (((cfg0.win 3).blk t).view.emb j) (by rw [hi1, e31]; omega) ?_ ?_ ?_
  · intro y' i' h0 h0' h1
    show V c main_arg0 (((cfg0.win 0).blk t).view.emb y') = V c main_arg0 i'
    congr 1
    funext a; apply Fin.ext
    match a with
    | ⟨0, _⟩ => show win0_0.index t (0 : Fin 2) * 5000 + 1 * (y' 0).val = (i' 0).val; rw [h0', hi0, e00, e30, h0]
    | ⟨1, _⟩ => show win0_0.index t (1 : Fin 2) * 32 + 1 * (y' 1).val = (i' 1).val; rw [h1, e01]; omega
  · funext y
    show V c main_arg3 (((cfg0.win 1).blk t).view.emb y) = V c main_arg3 y
    congr 1
    funext a; apply Fin.ext
    match a with
    | ⟨0, _⟩ => show win0_1.index t (0 : Fin 2) * 32 + 1 * (y 0).val = (y 0).val; rw [e10]; omega
    | ⟨1, _⟩ => show win0_1.index t (1 : Fin 2) * 64 + 1 * (y 1).val = (y 1).val; rw [e11]; omega
  · funext y
    show V c main_v4 (((cfg0.win 2).blk t).view.emb y) = V c main_v4 y
    congr 1
    funext a; apply Fin.ext
    match a with
    | ⟨0, _⟩ => show win0_2.index t (0 : Fin 2) * 1 + 1 * (y 0).val = (y 0).val; rw [e20]; omega
    | ⟨1, _⟩ => show win0_2.index t (1 : Fin 2) * 64 + 1 * (y 1).val = (y 1).val; rw [e21]; omega

/-- An index of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Row r is in the block of point r / 5000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  obtain ⟨-, -, -, -, -, -, e30, e31⟩ := idx_facts ⟨(i 0).val / 5000, by rw [hN]; omega⟩
  rw [mem_blk]
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e31]; omega

/-- The output array after the region: the whole-array projection of what the region was entered with. -/
theorem final (c : Dev nD) : (dat0 V c).arrAt 3 cfg0.N = G V c :=
  (dat0 V c).arrAt_eq_of_cover 3 (G V c) (fun t _ => flushed_eq V c t) (cover)

/-- The same, with the entry buffers named: whatever the three arrays the region reads are, the output array is their
    whole-array projection. -/
theorem final_of (c : Dev nD) {x : FVec Ideal S100000x32 .f32} {w : FVec Ideal S32x64 .f32} {b : FVec Ideal S1x64 .f32}
    (hx : V c main_arg0 = x) (hw : V c main_arg3 = w) (hb : V c main_v4 = b) :
    (dat0 V c).arrAt 3 cfg0.N = Cert.Spec.projK x w b := by
  subst hx hw hb
  exact final V c

end Cert.KernelIdeal.Region0

end
-- ==== Proof.Region1.lean ====
/-
  What a step's region leaves in its output array: the dense part of the step, of the arrays it was entered with.

  Point t of the 20-point grid stages rows 5000t … 5000t + 4999 of h and of the neighbours' sum (windows 0 and 1), all of
  the two weight matrices and the two bias rows (windows 2 to 5, at block (0, 0)), and writes back rows 5000t … 5000t + 4999
  of the output (window 6).  What it writes is the block form of the step on the staged rows, which is those rows of the
  whole-array step; the 20 blocks cover the 100000 rows, so the array ends as the whole-array step.
-/
import proofs.«112093_j32332513804324_1_alg».proof.Proof.Gen.KernelIdeal.Frame
import proofs.«112093_j32332513804324_1_alg».proof.Proof.Rows
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weights and the bias rows at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The whole-array step of the arrays the region finds. -/
abbrev G (c : Dev nD) : FVec Ideal S100000x64 .f32 :=
  Cert.Spec.layerK (V c main_v5) (V c main_v15) (V c main_v17) (V c main_v24) (V c main_v21) (V c main_v25)

set_option maxHeartbeats 1000000 in
/-- What point t writes back is block t of the whole-array step. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  rw [Cert.Spec.k1_pay1_eq]
  obtain ⟨e00, e01, e10, e11, e20, e21, e30, e31, e40, e41, e50, e51, e60, e61⟩ := idx_facts t
  funext j
  have hj0 : (j 0).val < 5000 := (j 0).isLt
  have hj1 : (j 1).val < 64 := (j 1).isLt
  have hi0 : ((((cfg1.win 6).blk t).view.emb j) 0).val = win1_6.index t (0 : Fin 2) * 5000 + 1 * (j 0).val := rfl
  have hi1 : ((((cfg1.win 6).blk t).view.emb j) 1).val = win1_6.index t (1 : Fin 2) * 64 + 1 * (j 1).val := rfl
  refine Cert.Rows.layer_at _ _ _ _ _ _ _ _ _ _ _ _ j (((cfg1.win 6).blk t).view.emb j) (by rw [hi1, e61]; omega) ?_ ?_ ?_ ?_ ?_ ?_
  · intro y' i' h0 h0' h1
    show V c main_v5 (((cfg1.win 0).blk t).view.emb y') = V c main_v5 i'
    congr 1
    funext a; apply Fin.ext
    match a with
    | ⟨0, _⟩ => show win1_0.index t (0 : Fin 2) * 5000 + 1 * (y' 0).val = (i' 0).val; rw [h0', hi0, e00, e60, h0]
    | ⟨1, _⟩ => show win1_0.index t (1 : Fin 2) * 64 + 1 * (y' 1).val = (i' 1).val; rw [h1, e01]; omega
  · intro y' i' h0 h0' h1
    show V c main_v15 (((cfg1.win 1).blk t).view.emb y') = V c main_v15 i'
    congr 1
    funext a; apply Fin.ext
    match a with
    | ⟨0, _⟩ => show win1_1.index t (0 : Fin 2) * 5000 + 1 * (y' 0).val = (i' 0).val; rw [h0', hi0, e10, e60, h0]
    | ⟨1, _⟩ => show win1_1.index t (1 : Fin 2) * 64 + 1 * (y' 1).val = (i' 1).val; rw [h1, e11]; omega
  · funext y
    show V c main_v17 (((cfg1.win 2).blk t).view.emb y) = V c main_v17 y
    congr 1
    funext a; apply Fin.ext
    match a with
    | ⟨0, _⟩ => show win1_2.index t (0 : Fin 2) * 64 + 1 * (y 0).val = (y 0).val; rw [e20]; omega
    | ⟨1, _⟩ => show win1_2.index t (1 : Fin 2) * 64 + 1 * (y 1).val = (y 1).val; rw [e21]; omega
  · funext y
    show V c main_v24 (((cfg1.win 3).blk t).view.emb y) = V c main_v24 y
    congr 1
    funext a; apply Fin.ext
    match a with
    | ⟨0, _⟩ => show win1_3.index t (0 : Fin 2) * 1 + 1 * (y 0).val = (y 0).val; rw [e30]; omega
    | ⟨1, _⟩ => show win1_3.index t (1 : Fin 2) * 64 + 1 * (y 1).val = (y 1).val; rw [e31]; omega
  · funext y
    show V c main_v21 (((cfg1.win 4).blk t).view.emb y) = V c main_v21 y
    congr 1
    funext a; apply Fin.ext
    match a with
    | ⟨0, _⟩ => show win1_4.index t (0 : Fin 2) * 64 + 1 * (y 0).val = (y 0).val; rw [e40]; omega
    | ⟨1, _⟩ => show win1_4.index t (1 : Fin 2) * 64 + 1 * (y 1).val = (y 1).val; rw [e41]; omega
  · funext y
    show V c main_v25 (((cfg1.win 5).blk t).view.emb y) = V c main_v25 y
    congr 1
    funext a; apply Fin.ext
    match a with
    | ⟨0, _⟩ => show win1_5.index t (0 : Fin 2) * 1 + 1 * (y 0).val = (y 0).val; rw [e50]; omega
    | ⟨1, _⟩ => show win1_5.index t (1 : Fin 2) * 64 + 1 * (y 1).val = (y 1).val; rw [e51]; omega

/-- An index of the array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v26).slice (win1_6.rect t)).set ↔ _
  rw [View.set_slice_whole, Rect.mem_set_unit]
  exact Iff.rfl

/-- Row r is in the block of point r / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  obtain ⟨-, -, -, -, -, -, -, -, -, -, -, -, e60, e61⟩ := idx_facts ⟨(i 0).val / 5000, by rw [hN]; omega⟩
  rw [mem_blk]
  intro a
  match a with
  | ⟨0, _⟩ => show win1_6.index _ (0 : Fin 2) * 5000 ≤ (i 0).val ∧ (i 0).val < win1_6.index _ (0 : Fin 2) * 5000 + 5000; rw [e60]; show (i 0).val / 5000 * 5000 ≤ (i 0).val ∧ (i 0).val < (i 0).val / 5000 * 5000 + 5000; omega
  | ⟨1, _⟩ => show win1_6.index _ (1 : Fin 2) * 64 ≤ (i 1).val ∧ (i 1).val < win1_6.index _ (1 : Fin 2) * 64 + 64; rw [e61]; omega

/-- The output array after the region: the whole-array step of what the region was entered with. -/
theorem final (c : Dev nD) : (dat1 V c).arrAt 6 cfg1.N = G V c :=
  (dat1 V c).arrAt_eq_of_cover 6 (G V c) (fun t _ => flushed_eq V c t) (cover)

/-- The same, with the entry buffers named: whatever the six arrays the region reads are, the output array is their
    whole-array step. -/
theorem final_of (c : Dev nD) {h a : FVec Ideal S100000x64 .f32} {w1 w2 : FVec Ideal S64x64 .f32} {b1 b2 : FVec Ideal S1x64 .f32}
    (hh : V c main_v5 = h) (ha : V c main_v15 = a) (hw1 : V c main_v17 = w1) (hb1 : V c main_v24 = b1)
    (hw2 : V c main_v21 = w2) (hb2 : V c main_v25 = b2) :
    (dat1 V c).arrAt 6 cfg1.N = Cert.Spec.layerK h a w1 b1 w2 b2 := by
  subst hh ha hw1 hb1 hw2 hb2
  exact final V c

end Cert.KernelIdeal.Region1

end
-- ==== Proof.Region2.lean ====
/-
  What a step's region leaves in its output array: the dense part of the step, of the arrays it was entered with.

  Point t of the 20-point grid stages rows 5000t … 5000t + 4999 of h and of the neighbours' sum (windows 0 and 1), all of
  the two weight matrices and the two bias rows (windows 2 to 5, at block (0, 0)), and writes back rows 5000t … 5000t + 4999
  of the output (window 6).  What it writes is the block form of the step on the staged rows, which is those rows of the
  whole-array step; the 20 blocks cover the 100000 rows, so the array ends as the whole-array step.
-/
import proofs.«112093_j32332513804324_1_alg».proof.Proof.Gen.KernelIdeal.Frame
import proofs.«112093_j32332513804324_1_alg».proof.Proof.Rows
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weights and the bias rows at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The whole-array step of the arrays the region finds. -/
abbrev G (c : Dev nD) : FVec Ideal S100000x64 .f32 :=
  Cert.Spec.layerK (V c main_v26) (V c main_v36) (V c main_v38) (V c main_v45) (V c main_v42) (V c main_v46)

set_option maxHeartbeats 1000000 in
/-- What point t writes back is block t of the whole-array step. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  rw [Cert.Spec.k2_pay1_eq]
  obtain ⟨e00, e01, e10, e11, e20, e21, e30, e31, e40, e41, e50, e51, e60, e61⟩ := idx_facts t
  funext j
  have hj0 : (j 0).val < 5000 := (j 0).isLt
  have hj1 : (j 1).val < 64 := (j 1).isLt
  have hi0 : ((((cfg2.win 6).blk t).view.emb j) 0).val = win2_6.index t (0 : Fin 2) * 5000 + 1 * (j 0).val := rfl
  have hi1 : ((((cfg2.win 6).blk t).view.emb j) 1).val = win2_6.index t (1 : Fin 2) * 64 + 1 * (j 1).val := rfl
  refine Cert.Rows.layer_at _ _ _ _ _ _ _ _ _ _ _ _ j (((cfg2.win 6).blk t).view.emb j) (by rw [hi1, e61]; omega) ?_ ?_ ?_ ?_ ?_ ?_
  · intro y' i' h0 h0' h1
    show V c main_v26 (((cfg2.win 0).blk t).view.emb y') = V c main_v26 i'
    congr 1
    funext a; apply Fin.ext
    match a with
    | ⟨0, _⟩ => show win2_0.index t (0 : Fin 2) * 5000 + 1 * (y' 0).val = (i' 0).val; rw [h0', hi0, e00, e60, h0]
    | ⟨1, _⟩ => show win2_0.index t (1 : Fin 2) * 64 + 1 * (y' 1).val = (i' 1).val; rw [h1, e01]; omega
  · intro y' i' h0 h0' h1
    show V c main_v36 (((cfg2.win 1).blk t).view.emb y') = V c main_v36 i'
    congr 1
    funext a; apply Fin.ext
    match a with
    | ⟨0, _⟩ => show win2_1.index t (0 : Fin 2) * 5000 + 1 * (y' 0).val = (i' 0).val; rw [h0', hi0, e10, e60, h0]
    | ⟨1, _⟩ => show win2_1.index t (1 : Fin 2) * 64 + 1 * (y' 1).val = (i' 1).val; rw [h1, e11]; omega
  · funext y
    show V c main_v38 (((cfg2.win 2).blk t).view.emb y) = V c main_v38 y
    congr 1
    funext a; apply Fin.ext
    match a with
    | ⟨0, _⟩ => show win2_2.index t (0 : Fin 2) * 64 + 1 * (y 0).val = (y 0).val; rw [e20]; omega
    | ⟨1, _⟩ => show win2_2.index t (1 : Fin 2) * 64 + 1 * (y 1).val = (y 1).val; rw [e21]; omega
  · funext y
    show V c main_v45 (((cfg2.win 3).blk t).view.emb y) = V c main_v45 y
    congr 1
    funext a; apply Fin.ext
    match a with
    | ⟨0, _⟩ => show win2_3.index t (0 : Fin 2) * 1 + 1 * (y 0).val = (y 0).val; rw [e30]; omega
    | ⟨1, _⟩ => show win2_3.index t (1 : Fin 2) * 64 + 1 * (y 1).val = (y 1).val; rw [e31]; omega
  · funext y
    show V c main_v42 (((cfg2.win 4).blk t).view.emb y) = V c main_v42 y
    congr 1
    funext a; apply Fin.ext
    match a with
    | ⟨0, _⟩ => show win2_4.index t (0 : Fin 2) * 64 + 1 * (y 0).val = (y 0).val; rw [e40]; omega
    | ⟨1, _⟩ => show win2_4.index t (1 : Fin 2) * 64 + 1 * (y 1).val = (y 1).val; rw [e41]; omega
  · funext y
    show V c main_v46 (((cfg2.win 5).blk t).view.emb y) = V c main_v46 y
    congr 1
    funext a; apply Fin.ext
    match a with
    | ⟨0, _⟩ => show win2_5.index t (0 : Fin 2) * 1 + 1 * (y 0).val = (y 0).val; rw [e50]; omega
    | ⟨1, _⟩ => show win2_5.index t (1 : Fin 2) * 64 + 1 * (y 1).val = (y 1).val; rw [e51]; omega

/-- An index of the array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v47).slice (win2_6.rect t)).set ↔ _
  rw [View.set_slice_whole, Rect.mem_set_unit]
  exact Iff.rfl

/-- Row r is in the block of point r / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  obtain ⟨-, -, -, -, -, -, -, -, -, -, -, -, e60, e61⟩ := idx_facts ⟨(i 0).val / 5000, by rw [hN]; omega⟩
  rw [mem_blk]
  intro a
  match a with
  | ⟨0, _⟩ => show win2_6.index _ (0 : Fin 2) * 5000 ≤ (i 0).val ∧ (i 0).val < win2_6.index _ (0 : Fin 2) * 5000 + 5000; rw [e60]; show (i 0).val / 5000 * 5000 ≤ (i 0).val ∧ (i 0).val < (i 0).val / 5000 * 5000 + 5000; omega
  | ⟨1, _⟩ => show win2_6.index _ (1 : Fin 2) * 64 ≤ (i 1).val ∧ (i 1).val < win2_6.index _ (1 : Fin 2) * 64 + 64; rw [e61]; omega

/-- The output array after the region: the whole-array step of what the region was entered with. -/
theorem final (c : Dev nD) : (dat2 V c).arrAt 6 cfg2.N = G V c :=
  (dat2 V c).arrAt_eq_of_cover 6 (G V c) (fun t _ => flushed_eq V c t) (cover)

/-- The same, with the entry buffers named: whatever the six arrays the region reads are, the output array is their
    whole-array step. -/
theorem final_of (c : Dev nD) {h a : FVec Ideal S100000x64 .f32} {w1 w2 : FVec Ideal S64x64 .f32} {b1 b2 : FVec Ideal S1x64 .f32}
    (hh : V c main_v26 = h) (ha : V c main_v36 = a) (hw1 : V c main_v38 = w1) (hb1 : V c main_v45 = b1)
    (hw2 : V c main_v42 = w2) (hb2 : V c main_v46 = b2) :
    (dat2 V c).arrAt 6 cfg2.N = Cert.Spec.layerK h a w1 b1 w2 b2 := by
  subst hh ha hw1 hb1 hw2 hb2
  exact final V c

end Cert.KernelIdeal.Region2

end
-- ==== Proof.Region3.lean ====
/-
  What a step's region leaves in its output array: the dense part of the step, of the arrays it was entered with.

  Point t of the 20-point grid stages rows 5000t … 5000t + 4999 of h and of the neighbours' sum (windows 0 and 1), all of
  the two weight matrices and the two bias rows (windows 2 to 5, at block (0, 0)), and writes back rows 5000t … 5000t + 4999
  of the output (window 6).  What it writes is the block form of the step on the staged rows, which is those rows of the
  whole-array step; the 20 blocks cover the 100000 rows, so the array ends as the whole-array step.
-/
import proofs.«112093_j32332513804324_1_alg».proof.Proof.Gen.KernelIdeal.Frame
import proofs.«112093_j32332513804324_1_alg».proof.Proof.Rows
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block (t, 0), the weights and the bias rows at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The whole-array step of the arrays the region finds. -/
abbrev G (c : Dev nD) : FVec Ideal S100000x64 .f32 :=
  Cert.Spec.layerK (V c main_v47) (V c main_v57) (V c main_v59) (V c main_v66) (V c main_v63) (V c main_v67)

set_option maxHeartbeats 1000000 in
/-- What point t writes back is block t of the whole-array step. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  rw [Cert.Spec.k3_pay1_eq]
  obtain ⟨e00, e01, e10, e11, e20, e21, e30, e31, e40, e41, e50, e51, e60, e61⟩ := idx_facts t
  funext j
  have hj0 : (j 0).val < 5000 := (j 0).isLt
  have hj1 : (j 1).val < 64 := (j 1).isLt
  have hi0 : ((((cfg3.win 6).blk t).view.emb j) 0).val = win3_6.index t (0 : Fin 2) * 5000 + 1 * (j 0).val := rfl
  have hi1 : ((((cfg3.win 6).blk t).view.emb j) 1).val = win3_6.index t (1 : Fin 2) * 64 + 1 * (j 1).val := rfl
  refine Cert.Rows.layer_at _ _ _ _ _ _ _ _ _ _ _ _ j (((cfg3.win 6).blk t).view.emb j) (by rw [hi1, e61]; omega) ?_ ?_ ?_ ?_ ?_ ?_
  · intro y' i' h0 h0' h1
    show V c main_v47 (((cfg3.win 0).blk t).view.emb y') = V c main_v47 i'
    congr 1
    funext a; apply Fin.ext
    match a with
    | ⟨0, _⟩ => show win3_0.index t (0 : Fin 2) * 5000 + 1 * (y' 0).val = (i' 0).val; rw [h0', hi0, e00, e60, h0]
    | ⟨1, _⟩ => show win3_0.index t (1 : Fin 2) * 64 + 1 * (y' 1).val = (i' 1).val; rw [h1, e01]; omega
  · intro y' i' h0 h0' h1
    show V c main_v57 (((cfg3.win 1).blk t).view.emb y') = V c main_v57 i'
    congr 1
    funext a; apply Fin.ext
    match a with
    | ⟨0, _⟩ => show win3_1.index t (0 : Fin 2) * 5000 + 1 * (y' 0).val = (i' 0).val; rw [h0', hi0, e10, e60, h0]
    | ⟨1, _⟩ => show win3_1.index t (1 : Fin 2) * 64 + 1 * (y' 1).val = (i' 1).val; rw [h1, e11]; omega
  · funext y
    show V c main_v59 (((cfg3.win 2).blk t).view.emb y) = V c main_v59 y
    congr 1
    funext a; apply Fin.ext
    match a with
    | ⟨0, _⟩ => show win3_2.index t (0 : Fin 2) * 64 + 1 * (y 0).val = (y 0).val; rw [e20]; omega
    | ⟨1, _⟩ => show win3_2.index t (1 : Fin 2) * 64 + 1 * (y 1).val = (y 1).val; rw [e21]; omega
  · funext y
    show V c main_v66 (((cfg3.win 3).blk t).view.emb y) = V c main_v66 y
    congr 1
    funext a; apply Fin.ext
    match a with
    | ⟨0, _⟩ => show win3_3.index t (0 : Fin 2) * 1 + 1 * (y 0).val = (y 0).val; rw [e30]; omega
    | ⟨1, _⟩ => show win3_3.index t (1 : Fin 2) * 64 + 1 * (y 1).val = (y 1).val; rw [e31]; omega
  · funext y
    show V c main_v63 (((cfg3.win 4).blk t).view.emb y) = V c main_v63 y
    congr 1
    funext a; apply Fin.ext
    match a with
    | ⟨0, _⟩ => show win3_4.index t (0 : Fin 2) * 64 + 1 * (y 0).val = (y 0).val; rw [e40]; omega
    | ⟨1, _⟩ => show win3_4.index t (1 : Fin 2) * 64 + 1 * (y 1).val = (y 1).val; rw [e41]; omega
  · funext y
    show V c main_v67 (((cfg3.win 5).blk t).view.emb y) = V c main_v67 y
    congr 1
    funext a; apply Fin.ext
    match a with
    | ⟨0, _⟩ => show win3_5.index t (0 : Fin 2) * 1 + 1 * (y 0).val = (y 0).val; rw [e50]; omega
    | ⟨1, _⟩ => show win3_5.index t (1 : Fin 2) * 64 + 1 * (y 1).val = (y 1).val; rw [e51]; omega

/-- An index of the array is in point t's block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v68).slice (win3_6.rect t)).set ↔ _
  rw [View.set_slice_whole, Rect.mem_set_unit]
  exact Iff.rfl

/-- Row r is in the block of point r / 5000. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_6 _, ?_⟩
  obtain ⟨-, -, -, -, -, -, -, -, -, -, -, -, e60, e61⟩ := idx_facts ⟨(i 0).val / 5000, by rw [hN]; omega⟩
  rw [mem_blk]
  intro a
  match a with
  | ⟨0, _⟩ => show win3_6.index _ (0 : Fin 2) * 5000 ≤ (i 0).val ∧ (i 0).val < win3_6.index _ (0 : Fin 2) * 5000 + 5000; rw [e60]; show (i 0).val / 5000 * 5000 ≤ (i 0).val ∧ (i 0).val < (i 0).val / 5000 * 5000 + 5000; omega
  | ⟨1, _⟩ => show win3_6.index _ (1 : Fin 2) * 64 ≤ (i 1).val ∧ (i 1).val < win3_6.index _ (1 : Fin 2) * 64 + 64; rw [e61]; omega

/-- The output array after the region: the whole-array step of what the region was entered with. -/
theorem final (c : Dev nD) : (dat3 V c).arrAt 6 cfg3.N = G V c :=
  (dat3 V c).arrAt_eq_of_cover 6 (G V c) (fun t _ => flushed_eq V c t) (cover)

/-- The same, with the entry buffers named: whatever the six arrays the region reads are, the output array is their
    whole-array step. -/
theorem final_of (c : Dev nD) {h a : FVec Ideal S100000x64 .f32} {w1 w2 : FVec Ideal S64x64 .f32} {b1 b2 : FVec Ideal S1x64 .f32}
    (hh : V c main_v47 = h) (ha : V c main_v57 = a) (hw1 : V c main_v59 = w1) (hb1 : V c main_v66 = b1)
    (hw2 : V c main_v63 = w2) (hb2 : V c main_v67 = b2) :
    (dat3 V c).arrAt 6 cfg3.N = Cert.Spec.layerK h a w1 b1 w2 b2 := by
  subst hh ha hw1 hb1 hw2 hb2
  exact final V c

end Cert.KernelIdeal.Region3

end
-- ==== Proof.KernelValue.lean ====
/-
  The kernel program's result is the network of its eleven arguments.

  Region by region: the array a region leaves is the whole-array projection or step of the buffers it was entered with
  (the region modules); those buffers are the launch contents, the previous region's array and its neighbours' sum
  (the host reads); a bias reshaped to a row is the bias broadcast into that row.  So the four arrays are the
  specification's h₀, h₁, h₂, h₃, and the result buffer after the last stretch is the readout of h₃.
-/
import proofs.«112093_j32332513804324_1_alg».proof.Proof.HostRead
import proofs.«112093_j32332513804324_1_alg».proof.Proof.Region0
import proofs.«112093_j32332513804324_1_alg».proof.Proof.Region1
import proofs.«112093_j32332513804324_1_alg».proof.Proof.Region2
import proofs.«112093_j32332513804324_1_alg».proof.Proof.Region3
import proofs.«112093_j32332513804324_1_alg».proof.Proof.ValueRun

set_option maxRecDepth 16384

noncomputable section

namespace Cert.KernelIdeal.KernelValue

open Cert.KernelIdeal Cert.KernelIdeal.Gen Cert.KernelIdeal.HostRead
open Idealize.ShloMosaic Idealize.ShloMosaic.TcCoe Idealize.SL.Sem

variable (m : (ℓ : Loc nD τ sig) → Buf (Elt Ideal) ℓ) (ρ : Dev nD → PrngReg)

/-- The hidden arrays as the specification computes them from the launch contents. -/
def H0 (c : Dev nD) : FVec Ideal S100000x64 .f32 :=
  Cert.Spec.projK (m ((c : Thread nD τ).loc main_arg0)) (m ((c : Thread nD τ).loc main_arg3)) (Cert.Spec.asRow (m ((c : Thread nD τ).loc main_arg4)))
def H1 (c : Dev nD) : FVec Ideal S100000x64 .f32 :=
  Cert.Spec.step (Cert.Spec.srcOf (m ((c : Thread nD τ).loc main_arg1))) (Cert.Spec.dstOf (m ((c : Thread nD τ).loc main_arg1))) (H0 m c)
    (Cert.Spec.wAt0 (m ((c : Thread nD τ).loc main_arg5))) (Cert.Spec.asRow (Cert.Spec.bAt0 (m ((c : Thread nD τ).loc main_arg6))))
    (Cert.Spec.wAt0 (m ((c : Thread nD τ).loc main_arg7))) (Cert.Spec.asRow (Cert.Spec.bAt0 (m ((c : Thread nD τ).loc main_arg8))))
def H2 (c : Dev nD) : FVec Ideal S100000x64 .f32 :=
  Cert.Spec.step (Cert.Spec.srcOf (m ((c : Thread nD τ).loc main_arg1))) (Cert.Spec.dstOf (m ((c : Thread nD τ).loc main_arg1))) (H1 m c)
    (Cert.Spec.wAt1 (m ((c : Thread nD τ).loc main_arg5))) (Cert.Spec.asRow (Cert.Spec.bAt1 (m ((c : Thread nD τ).loc main_arg6))))
    (Cert.Spec.wAt1 (m ((c : Thread nD τ).loc main_arg7))) (Cert.Spec.asRow (Cert.Spec.bAt1 (m ((c : Thread nD τ).loc main_arg8))))
def H3 (c : Dev nD) : FVec Ideal S100000x64 .f32 :=
  Cert.Spec.step (Cert.Spec.srcOf (m ((c : Thread nD τ).loc main_arg1))) (Cert.Spec.dstOf (m ((c : Thread nD τ).loc main_arg1))) (H2 m c)
    (Cert.Spec.wAt2 (m ((c : Thread nD τ).loc main_arg5))) (Cert.Spec.asRow (Cert.Spec.bAt2 (m ((c : Thread nD τ).loc main_arg6))))
    (Cert.Spec.wAt2 (m ((c : Thread nD τ).loc main_arg7))) (Cert.Spec.asRow (Cert.Spec.bAt2 (m ((c : Thread nD τ).loc main_arg8))))

/-- The projection's region leaves h₀. -/
theorem K0_eq (c : Dev nD) : K0 m ρ c = H0 m c :=
  Cert.KernelIdeal.Region0.final_of (V1 m ρ) c (w1_arg0 m ρ c) (w1_arg3 m ρ c)
    ((w1_v4 m ρ c).trans (Cert.Spec.asRow_eq_shapeCast (F := Ideal) (m ((c : Thread nD τ).loc main_arg4)) _))

/-- Step 1's region leaves h₁. -/
theorem K1_eq (c : Dev nD) : K1 m ρ c = H1 m c :=
  Cert.KernelIdeal.Region1.final_of (V3 m ρ) c ((w3_v5 m ρ c).trans (K0_eq m ρ c))
    ((w3_v15 m ρ c).trans (congrArg (Cert.Spec.agg _ _) (K0_eq m ρ c)))
    (w3_v17 m ρ c) ((w3_v24 m ρ c).trans (Cert.Spec.asRow_eq_shapeCast _ _))
    (w3_v21 m ρ c) ((w3_v25 m ρ c).trans (Cert.Spec.asRow_eq_shapeCast _ _))

/-- Step 2's region leaves h₂. -/
theorem K2_eq (c : Dev nD) : K2 m ρ c = H2 m c :=
  Cert.KernelIdeal.Region2.final_of (V5 m ρ) c ((w5_v26 m ρ c).trans (K1_eq m ρ c))
    ((w5_v36 m ρ c).trans (congrArg (Cert.Spec.agg _ _) (K1_eq m ρ c)))
    (w5_v38 m ρ c) ((w5_v45 m ρ c).trans (Cert.Spec.asRow_eq_shapeCast _ _))
    (w5_v42 m ρ c) ((w5_v46 m ρ c).trans (Cert.Spec.asRow_eq_shapeCast _ _))

/-- Step 3's region leaves h₃. -/
theorem K3_eq (c : Dev nD) : K3 m ρ c = H3 m c :=
  Cert.KernelIdeal.Region3.final_of (V7 m ρ) c ((w7_v47 m ρ c).trans (K2_eq m ρ c))
    ((w7_v57 m ρ c).trans (congrArg (Cert.Spec.agg _ _) (K2_eq m ρ c)))
    (w7_v59 m ρ c) ((w7_v66 m ρ c).trans (Cert.Spec.asRow_eq_shapeCast _ _))
    (w7_v63 m ρ c) ((w7_v67 m ρ c).trans (Cert.Spec.asRow_eq_shapeCast _ _))

/-- The result buffer after the last stretch is the network of the launch contents. -/
theorem value (c : Dev nD) : W9 m ρ c (Proc.devRef .tc main_v75)
    = Cert.Spec.net (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) :=
  (w9_v75 m ρ c).trans (by
    rw [K3_eq]
    unfold H3 H2 H1 H0 Cert.Spec.net
    rfl)

/-- The run, read: the result buffer ends at the network of the arguments, the arguments unchanged. -/
theorem run : θ_run defs (onTc (τ := τ) (main (F := Ideal))) ⟨m, fun _ => 0, ρ⟩ (fun r => ∀ c : Dev nD,
      r.2.mem ((c.tc : Thread nD τ).loc main_v75)
        = Cert.Spec.net (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (value m ρ c), (h c).2⟩) (Cert.KernelIdeal.ValueRun.run m ρ)

end Cert.KernelIdeal.KernelValue

end
-- ==== Proof.RefValue.lean ====
/-
  The reference's result, as the run of its @main states it, is the network of the eleven arguments.
  The run's term is the operations composed, every intermediate written out where it is used; grouped by projection,
  steps and readout it is `Spec.net` literally (jax's relu prints as the maximum with a zero array).
-/
import proofs.«112093_j32332513804324_1_alg».proof.Proof.Gen.ReferenceIdeal.Run
import proofs.«112093_j32332513804324_1_alg».proof.Proof.Net

noncomputable section

namespace Cert.RefValue

open Idealize.ShloMosaic Idealize.ShloMosaic.TcCoe Idealize.SL.Sem
open Cert.ReferenceIdeal Cert.ReferenceIdeal.Gen Cert.ReferenceIdeal.Value

variable {F : FTy → Type} [FloatOps F]

set_option maxRecDepth 16384 in
theorem res_eq (m : (ℓ : Loc nD τ sig) → Buf (Elt F) ℓ) (c : Dev nD) :
    res_main_v104 m c = Cert.Spec.net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold res_main_v104
  rfl

end Cert.RefValue

end
-- ==== Proof.lean ====
/-
  The kernel and the reference compute the same network, at the exact values.

  Both programs project the node features (x·W_in + b_in), apply three times the step
  h ↦ relu(relu((h + agg h)·W₁ + b₁)·W₂ + b₂) + h — agg h the sum over the incoming edges of the source rows of h —
  and read out the per-graph sums through W_fc and b_fc.  The gather, the scatter-adds and the readout are the same host
  operations in both.  The kernel computes the projection and the dense part of each step in blocks of 5000 rows, with
  the matrix products' operands narrowed to bf16 and accumulated into a zero block; at the exact values a change of format
  is the identity, a product into the zero block is the plain sum of products, and row r of a product depends on row r of
  its left operand only, so each block is the corresponding rows of the whole-array result and the 20 blocks cover the
  array.  Only the commutativity and associativity of the extended reals' sum are used, so nothing has to be finite and
  the precondition is never opened.  The idealization rewrote nothing, so `preserves` is trivial.
-/
import proofs.«112093_j32332513804324_1_alg».proof.Defs
import proofs.«112093_j32332513804324_1_alg».proof.Proof.Gen.Kernel
import proofs.«112093_j32332513804324_1_alg».proof.Proof.Gen.Kernel.Skeleton
import proofs.«112093_j32332513804324_1_alg».proof.Proof.Gen.Kernel.Launch
import proofs.«112093_j32332513804324_1_alg».proof.Proof.Gen.Kernel.Points
import proofs.«112093_j32332513804324_1_alg».proof.Proof.Gen.Kernel.Frame
import proofs.«112093_j32332513804324_1_alg».proof.Proof.Gen.KernelIdeal
import proofs.«112093_j32332513804324_1_alg».proof.Proof.Gen.KernelIdeal.Skeleton
import proofs.«112093_j32332513804324_1_alg».proof.Proof.Gen.KernelIdeal.Launch
import proofs.«112093_j32332513804324_1_alg».proof.Proof.Gen.KernelIdeal.Points
import proofs.«112093_j32332513804324_1_alg».proof.Proof.Gen.KernelIdeal.Frame
import proofs.«112093_j32332513804324_1_alg».proof.Proof.Gen.ReferenceIdeal
import proofs.«112093_j32332513804324_1_alg».proof.Proof.Gen.ReferenceIdeal.Run
import proofs.«112093_j32332513804324_1_alg».proof.Proof.Gen.Pre_finite_inputs
import proofs.«112093_j32332513804324_1_alg».proof.Proof.KernelValue
import proofs.«112093_j32332513804324_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the network of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.RefValue.res_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
